-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S1600000x64 : Shape := ⟨2, ![1600000, 64]⟩
abbrev S64x128 : Shape := ⟨2, ![64, 128]⟩
abbrev S128 : Shape := ⟨1, ![128]⟩
abbrev S128x128 : Shape := ⟨2, ![128, 128]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1600000x64 : S_.BroadcastsInDim S1600000x64 (![] : Fin 0 → Fin S1600000x64.rank)
  reducesTo_S1600000x64_S_d0_1 : S1600000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x1600000_S1x1600000_0_0 : S2x1600000.Slices ![0, 0] S1x1600000
  shapeCasts_S1x1600000_S1600000 : S1x1600000.ShapeCasts S1600000

variable [Facts]

def fn_part4 {F : FTy → Type} [FloatOps F] (main_v64 : IVec S_ 1) (main_v68 : IVec S1600000 1) : IVec S_ 1 :=
  let main_c_25 : IVec S_ 1 := constantI S_ 1 1#1
  let main_v69 : IVec S_ 1 := (fun x v => Host.reduce IntOp.andi x v reducesTo_S1600000_S_d0 h_S_) main_v68 main_c_25
  let main_v70 : IVec S_ 1 := andi main_v64 main_v69
  main_v70

def fn_part3 {F : FTy → Type} [FloatOps F] (main_arg1 : IVec S2x1600000 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : IVec S1x1600000 32 := (extractStridedSlice S1x1600000 ![0, 0] · slices_S2x1600000_S1x1600000_0_0) main_arg1
  let main_v60 : IVec S1600000 32 := shapeCast S1600000 main_v59 shapeCasts_S1x1600000_S1600000
  let main_c_22 : IVec S_ 32 := constantI S_ 32 0#32
  let main_v61 : IVec S1600000 32 := broadcastInDim S1600000 ![] bcast_S_S1600000 main_c_22
  let main_v62 : IVec S1600000 1 := cmpi .sge main_v60 main_v61
  let main_c_23 : IVec S_ 1 := constantI S_ 1 1#1
  let main_v63 : IVec S_ 1 := (fun x v => Host.reduce IntOp.andi x v reducesTo_S1600000_S_d0 h_S_) main_v62 main_c_23
  let main_v64 : IVec S_ 1 := andi main_v58 main_v63
  let main_v65 : IVec S1x1600000 32 := (extractStridedSlice S1x1600000 ![0, 0] · slices_S2x1600000_S1x1600000_0_0) main_arg1
  let main_v66 : IVec S1600000 32 := shapeCast S1600000 main_v65 shapeCasts_S1x1600000_S1600000
  let main_c_24 : IVec S_ 32 := constantI S_ 32 100000#32
  let main_v67 : IVec S1600000 32 := broadcastInDim S1600000 ![] bcast_S_S1600000 main_c_24
  let main_v68 : IVec S1600000 1 := cmpi .slt main_v66 main_v67
  fn_part4 (F := F) main_v64 main_v68

def fn_part2 {F : FTy → Type} [FloatOps F] (main_arg1 : IVec S2x1600000 32) (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_v48 main_v49 main_v50

def fn_part1 {F : FTy → Type} [FloatOps F] (main_arg1 : IVec S2x1600000 32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x128 .f32) (main_arg1 : IVec S2x1600000 32) (main_arg2 : FVec F S1600000 .f32) (main_arg3 : FVec F S1600000x64 .f32) (main_arg4 : FVec F S64x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000x64 .f32 := Host.absf main_arg3
  let main_cst_2 : FVec F S_ .f32 := constant S_ .f32 0x7F800000#32
  let main_v10 : FVec F S1600000x64 .f32 := broadcastInDim S1600000x64 ![] bcast_S_S1600000x64 main_cst_2
  let main_v11 : IVec S1600000x64 1 := cmpf .olt main_v9 main_v10
  let main_c_3 : IVec S_ 1 := constantI S_ 1 1#1
  let main_v12 : IVec S_ 1 := (fun x v => Host.reduce IntOp.andi x v reducesTo_S1600000x64_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S1600000x64 : Shape := ⟨2, ![1600000, 64]⟩
abbrev S64x128 : Shape := ⟨2, ![64, 128]⟩
abbrev S128 : Shape := ⟨1, ![128]⟩
abbrev S128x128 : Shape := ⟨2, ![128, 128]⟩
abbrev S_ : Shape := ⟨0, ![]⟩
abbrev S1605632x64 : Shape := ⟨2, ![1605632, 64]⟩
abbrev S1605632 : Shape := ⟨1, ![1605632]⟩
abbrev S1605632x128 : Shape := ⟨2, ![1605632, 128]⟩
abbrev S8192x64 : Shape := ⟨2, ![8192, 64]⟩
abbrev S8192 : Shape := ⟨1, ![8192]⟩
abbrev S8192x128 : Shape := ⟨2, ![8192, 128]⟩
abbrev S1x128 : Shape := ⟨2, ![1, 128]⟩
abbrev S8192x1 : Shape := ⟨2, ![8192, 1]⟩
abbrev S1600000x128 : Shape := ⟨2, ![1600000, 128]⟩
abbrev S2000x128 : Shape := ⟨2, ![2000, 128]⟩
abbrev S1x1600000 : Shape := ⟨2, ![1, 1600000]⟩
abbrev S1600000x1 : Shape := ⟨2, ![1600000, 1]⟩
abbrev S1 : Shape := ⟨1, ![1]⟩
abbrev S1x1 : Shape := ⟨2, ![1, 1]⟩
abbrev S100000 : Shape := ⟨1, ![100000]⟩
abbrev S100000x1 : Shape := ⟨2, ![100000, 1]⟩

abbrev nBuf : Space → Nat
  | .hbm => 68
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S1600000x64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S_, .f32⟩
  | .hbm, ⟨15, _⟩ => ⟨S1605632x64, .f32⟩
  | .hbm, ⟨16, _⟩ => ⟨S_, .f32⟩
  | .hbm, ⟨17, _⟩ => ⟨S_, .f32⟩
  | .hbm, ⟨18, _⟩ => ⟨S1605632, .f32⟩
  | .hbm, ⟨19, _⟩ => ⟨S1605632x128, .bf16⟩
  | .hbm, ⟨20, _⟩ => ⟨S1600000x128, .bf16⟩
  | .hbm, ⟨21, _⟩ => ⟨S1600000x128, .f32⟩
  | .hbm, ⟨22, _⟩ => ⟨S100000x128, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1, .i32⟩
  | .hbm, ⟨36, _⟩ => ⟨S_, .i32⟩
  | .hbm, ⟨37, _⟩ => ⟨S1600000x1, .i32⟩
  | .hbm, ⟨38, _⟩ => ⟨S1600000x1, .i1⟩
  | .hbm, ⟨39, _⟩ => ⟨S1x1, .i32⟩
  | .hbm, ⟨40, _⟩ => ⟨S1600000x1, .i32⟩
  | .hbm, ⟨41, _⟩ => ⟨S1600000x1, .i1⟩
  | .hbm, ⟨42, _⟩ => ⟨S1600000x1, .i1⟩
  | .hbm, ⟨43, _⟩ => ⟨S_, .i1⟩
  | .hbm, ⟨44, _⟩ => ⟨S1600000, .i1⟩
  | .hbm, ⟨45, _⟩ => ⟨S1600000x128, .f32⟩
  | .hbm, ⟨46, _⟩ => ⟨S1600000x128, .i1⟩
  | .hbm, ⟨47, _⟩ => ⟨S_, .f32⟩
  | .hbm, ⟨48, _⟩ => ⟨S1600000x128, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .local _ .vmem, ⟨0, _⟩ => ⟨S8192x64, .f32⟩
  | .local _ .vmem, ⟨1, _⟩ => ⟨S8192x64, .f32⟩
  | .local _ .vmem, ⟨2, _⟩ => ⟨S8192, .f32⟩
  | .local _ .vmem, ⟨3, _⟩ => ⟨S8192, .f32⟩
  | .local _ .vmem, ⟨4, _⟩ => ⟨S64x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S8192x128, .bf16⟩
  | .local _ .vmem, ⟨9, _⟩ => ⟨S8192x128, .bf16⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S2000x128, .f32⟩
  | .local _ .vmem, ⟨22, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_cst : Ref sig .tc := ⟨.hbm, 16, rfl⟩
abbrev main_call1_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_call2_cst : Ref sig .tc := ⟨.hbm, 47, rfl⟩
abbrev main_call2_v15 : Ref sig .tc := ⟨.hbm, 48, rfl⟩
abbrev main_v10 : Ref sig .tc := ⟨.hbm, 49, rfl⟩
abbrev main_v11 : Ref sig .tc := ⟨.hbm, 50, rfl⟩
abbrev main_cst_0 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_v15 : Ref sig .tc := ⟨.hbm, 56, rfl⟩
abbrev main_cst_2 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_3 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  pads_S1600000x64_S1605632x64_056320_000 : S1600000x64.Pads (![0, 0] : Fin 2 → Nat) ![5632, 0] ![0, 0] S1605632x64
  h_S_ : 0 < S_.numel
  pads_S1600000_S1605632_056320 : S1600000.Pads (![0] : Fin 1 → Nat) ![5632] ![0] S1605632
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192_S8192_0 : ∀ a, (![0] : Fin 1 → Nat) a + S8192.size a ≤ S8192.size a
  h_S8192 : 0 < S8192.numel
  shapeCasts_S8192_S8192 : S8192.ShapeCasts S8192
  natLt_1_32 : 1 < 32
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S8192_S8192x1 : S8192.ShapeCasts S8192x1
  broadcasts_S8192x1_S8192x128 : S8192x1.Broadcasts S8192x128
  inb_S8192x128_S8192x128_0_0 : ∀ a, (![0, 0] : Fin 2 → Nat) a + S8192x128.size a ≤ S8192x128.size a
  h_S8192x128 : 0 < S8192x128.numel
  packedbf16_S8192x128_S8192x128_0_0 : (Rect.unit (s := S8192x128) ![0, 0] S8192x128.size inb_S8192x128_S8192x128_0_0).PackedRows (EltTy.packing .bf16)
  slices_S1605632x128_S1600000x128_0_0 : S1605632x128.Slices ![0, 0] S1600000x128
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  broadcasts_S1x128_S2000x128 : S1x128.Broadcasts S2000x128
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1605632x64.size a
  hwx0_0 : ∀ i : grid0.Coords, EltTy.bits .f32 = 32 ∨ (Rect.block (s := S1605632x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1605632.size a
  hwx0_1 : ∀ i : grid0.Coords, EltTy.bits .f32 = 32 ∨ (Rect.block (s := S1605632) S8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x128.size a ≤ S1605632x128.size a
  hwx0_6 : ∀ i : grid0.Coords, EltTy.bits .bf16 = 32 ∨ (Rect.block (s := S1605632x128) S8192x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_v0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8192x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v23) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S1600000x64 : Shape := ⟨2, ![1600000, 64]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S_ : Shape := ⟨0, ![]⟩
abbrev S1600000x128 : Shape := ⟨2, ![1600000, 128]⟩
abbrev S1x128 : Shape := ⟨2, ![1, 128]⟩
abbrev S1600000x1 : Shape := ⟨2, ![1600000, 1]⟩
abbrev S100000 : Shape := ⟨1, ![100000]⟩
abbrev S100000x1 : Shape := ⟨2, ![100000, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S1600000x64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S1600000, .f32⟩
  | .hbm, ⟨20, _⟩ => ⟨S1600000, .f32⟩
  | .hbm, ⟨21, _⟩ => ⟨S_, .f32⟩
  | .hbm, ⟨22, _⟩ => ⟨S1600000, .f32⟩
  | .hbm, ⟨23, _⟩ => ⟨S1600000, .f32⟩
  | .hbm, ⟨24, _⟩ => ⟨S_, .f32⟩
  | .hbm, ⟨25, _⟩ => ⟨S1600000, .f32⟩
  | .hbm, ⟨26, _⟩ => ⟨S1600000, .f32⟩
  | .hbm, ⟨27, _⟩ => ⟨S_, .f32⟩
  | .hbm, ⟨28, _⟩ => ⟨S1600000, .f32⟩
  | .hbm, ⟨29, _⟩ => ⟨S1600000, .i1⟩
  | .hbm, ⟨30, _⟩ => ⟨S1600000, .f32⟩
  | .hbm, ⟨31, _⟩ => ⟨S1600000, .f32⟩
  | .hbm, ⟨32, _⟩ => ⟨S1600000x128, .f32⟩
  | .hbm, ⟨33, _⟩ => ⟨S1x128, .f32⟩
  | .hbm, ⟨34, _⟩ => ⟨S1600000x128, .f32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S1600000x128, .f32⟩
  | .hbm, ⟨43, _⟩ => ⟨S1600000x128, .f32⟩
  | .hbm, ⟨44, _⟩ => ⟨S1600000x128, .f32⟩
  | .hbm, ⟨45, _⟩ => ⟨S1600000x128, .f32⟩
  | .hbm, ⟨46, _⟩ => ⟨S1x128, .f32⟩
  | .hbm, ⟨47, _⟩ => ⟨S1600000x128, .f32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c : Ref sig .tc := ⟨.hbm, 53, rfl⟩
abbrev main_v28 : Ref sig .tc := ⟨.hbm, 54, rfl⟩
abbrev main_v29 : Ref sig .tc := ⟨.hbm, 55, rfl⟩
abbrev main_c_3 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  dot_S1600000x64_S64x128_S1600000x128_1_0_0_1_n_n_wf : DotDims.WF S1600000x64 S64x128 S1600000x128 [1] [0] [0] [1] [] []
  dot_S1600000x128_S128x128_S1600000x128_1_0_0_1_n_n_wf : DotDims.WF S1600000x128 S128x128 S1600000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Spec.lean ====
/-
  The mathematics both programs compute, entry by entry, over the extended reals. Arrays are functions of literal
  index types; an entry is read at explicit coordinates.

  * `lin1 x w n f`          — a node's features through the first linear layer: Σ_k x[n,k]·w[k,f].
  * `silu z`                — z·σ(z) with σ(z) = 1/(1+e^{-z}).
  * `hid attr w1 b1 e k`    — the edge filter's hidden unit k of edge e: silu(Σ_l attr[e,l]·w1[l,k] + b1[k]).
  * `cut t`                 — the cosine cutoff of a distance t: ½·(cos(t·κ)+1)·[t < 5], κ the word of π/5 in f32,
                               the indicator read as the number 0 or 1.
  * `filt …  e f`           — the edge filter: (Σ_k hid[e,k]·w2[k,f] + b2[f])·cut(ew[e]).
  * `tail agg w2 b2 w b n f` — the block's tail on aggregated features:
                               Σ_k silu(Σ_l agg[n,l]·w2[l,k] + b2[k])·w[k,f] + b[f].
  Float literals stay as their words: the same word stands on both sides and is never evaluated.
-/
import Idealize.ShloMosaic.PureOps.Ideal
import Idealize.ShloMosaic.Lib.ValueIdx

noncomputable section

open scoped BigOperators

namespace Cert.Spec

open Idealize.ShloMosaic Idealize.ShloMosaic.ValueIdx

/-- Node features [100000, 128]. -/
abbrev Nodes : Shape := ⟨2, ![100000, 128]⟩
/-- Per-edge filters and messages [1600000, 128]. -/
abbrev Edges : Shape := ⟨2, ![1600000, 128]⟩
/-- Per-edge radial basis attributes [1600000, 64]. -/
abbrev Rbf : Shape := ⟨2, ![1600000, 64]⟩
/-- The first filter weight [64, 128]. -/
abbrev WIn : Shape := ⟨2, ![64, 128]⟩
/-- A square weight [128, 128]. -/
abbrev Sq : Shape := ⟨2, ![128, 128]⟩
/-- A bias [128]. -/
abbrev Bias : Shape := ⟨1, ![128]⟩
/-- Per-edge distances [1600000]. -/
abbrev Dist : Shape := ⟨1, ![1600000]⟩

/-- z·σ(z), σ the logistic function. -/
def silu (z : EReal) : EReal := z * Ideal.logistic z

/-- Σ_k x[n,k]·w[k,f]. -/
def lin1 (x : Nodes.Idx → EReal) (w : Sq.Idx → EReal) (n : Fin 100000) (f : Fin 128) : EReal :=
  ∑ k : Fin 128, x (ix2 n k) * w (ix2 k f)

/-- silu(Σ_l attr[e,l]·w1[l,k] + b1[k]), for a table of `E` edges (the kernel runs it on the edge axis padded to a
    multiple of its block, the reference on the edges themselves). -/
def hid {E : Nat} (attr : (⟨2, ![E, 64]⟩ : Shape).Idx → EReal) (w1 : WIn.Idx → EReal) (b1 : Bias.Idx → EReal) (e : Fin E) (k : Fin 128) : EReal :=
  silu ((∑ l : Fin 64, attr (ix2 e l) * w1 (ix2 l k)) + b1 (ix1 k))

/-- ½·(cos(t·κ)+1)·[t < 5]. -/
def cut (t : EReal) : EReal :=
  (Ideal.ofBits .f32 0x3F000000#32 * (Ideal.cos (t * Ideal.ofBits .f32 0x3F20D97C#32) + Ideal.ofBits .f32 0x3F800000#32))
    * (((Ideal.cmp .olt t (Ideal.ofBits .f32 0x40A00000#32)).toNat : ℝ) : EReal)

/-- (Σ_k hid[e,k]·w2[k,f] + b2[f])·cut(ew[e]). -/
def filt {E : Nat} (ew : (⟨1, ![E]⟩ : Shape).Idx → EReal) (attr : (⟨2, ![E, 64]⟩ : Shape).Idx → EReal) (w1 : WIn.Idx → EReal) (b1 : Bias.Idx → EReal)
    (w2 : Sq.Idx → EReal) (b2 : Bias.Idx → EReal) (e : Fin E) (f : Fin 128) : EReal :=
  ((∑ k : Fin 128, hid attr w1 b1 e k * w2 (ix2 k f)) + b2 (ix1 f)) * cut (ew (ix1 e))

/-- Σ_k silu(Σ_l agg[n,l]·w2[l,k] + b2[k])·w[k,f] + b[f]. -/
def tail (agg : Nodes.Idx → EReal) (w2 : Sq.Idx → EReal) (b2 : Bias.Idx → EReal) (w : Sq.Idx → EReal)
    (b : Bias.Idx → EReal) (n : Fin 100000) (f : Fin 128) : EReal :=
  (∑ k : Fin 128, silu ((∑ l : Fin 128, agg (ix2 n l) * w2 (ix2 l k)) + b2 (ix1 k)) * w (ix2 k f)) + b (ix1 f)

end Cert.Spec

end
-- ==== Proof.Take.lean ====
/- Source indices in range: the wrap of negative indices is the identity on them, the in-range mask of the
   filled gather is all ones, and a select on an all-ones mask is its first branch. -/
import proofs.«400786_j50714973831856_1_alg».proof.KernelIdeal
import proofs.«400786_j50714973831856_1_alg».proof.Proof.Gen.KernelIdeal
import Idealize.ShloMosaic.Lib.ValueIdx
import Idealize.ShloMosaic.Lib.ValueLayout
import Idealize.ShloMosaic.Lib.ReduceAll
import Idealize.ShloMosaic.Lib.StableHlo.Predicate

set_option maxRecDepth 16384

noncomputable section

namespace Cert.KernelIdeal.Take

open Cert.KernelIdeal Cert.KernelIdeal.Gen Idealize.ShloMosaic Idealize.ShloMosaic.ValueIdx

/-- Every source index is a node: 0 ≤ s[e] < 100000, read signed. -/
def InRange (s : IVec S1600000 32) : Prop := ∀ e : S1600000.Idx, 0 ≤ (s e).toInt ∧ (s e).toInt < 100000

/-- The words 0 and 99999 read signed are those numbers. -/
theorem toInt_zero : (0#32 : BitVec 32).toInt = 0 := by decide
theorem toInt_top : (99999#32 : BitVec 32).toInt = 99999 := by decide

/-- A node index is not negative: the bit "a < 0" is 0. -/
theorem word_neg {a : BitVec 32} (h : 0 ≤ a.toInt ∧ a.toInt < 100000) : IntOp.cmpi .slt a 0#32 = 0#1 := by
  refine eq_zero_of_ne_one fun hc => ?_
  have h1 := IntOp.cmpi_slt.1 hc
  rw [toInt_zero] at h1
  omega

/-- A node index passes both bounds: the bit "0 ≤ a" and the bit "a ≤ 99999" are 1, so is their conjunction. -/
theorem word_mask {a : BitVec 32} (h : 0 ≤ a.toInt ∧ a.toInt < 100000) :
    IntOp.andi (IntOp.cmpi .sge a 0#32) (IntOp.cmpi .sle a 99999#32) = 1#1 := by
  refine IntOp.andi_eq_one.2 ⟨IntOp.cmpi_sge.2 ?_, IntOp.cmpi_sle.2 ?_⟩
  · rw [toInt_zero]; exact h.1
  · rw [toInt_top]; omega

/-- A left fold by "and" from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by "and" from 1 of an array of bits that are all 1 is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-- On node indices the wrap "s < 0 ? s + 100000 : s" changes nothing. -/
theorem wrap_id (s : IVec S1600000 32) (h : InRange s) :
    select (cmpi .slt s (broadcastInDim S1600000 ![] bcast_S_S1600000 (constantI S_ 32 0#32)))
      (addi s (broadcastInDim S1600000 ![] bcast_S_S1600000 (constantI S_ 32 100000#32))) s = s := by
  funext e
  show Scalar.select (IntOp.cmpi .slt (s e) 0#32) (IntOp.addi (s e) 100000#32) (s e) = s e
  rw [word_neg (h e)]
  exact select_zero _ _

/-- On node indices the filled gather's mask "0 ≤ s ≤ 99999", reduced over the index vector's one component, is all ones. -/
theorem mask_ones (s : IVec S1600000 32) (h : InRange s) :
    Host.reduce IntOp.andi
      (andi (cmpi .sge (broadcastInDim S1600000x1 ![0] bcast_S1600000_S1600000x1_0 s) (broadcastInDim S1600000x1 ![] bcast_S_S1600000x1 (constantI S_ 32 0#32)))
        (cmpi .sle (broadcastInDim S1600000x1 ![0] bcast_S1600000_S1600000x1_0 s)
          (broadcastInDim S1600000x1 ![0, 1] bcast_S1x1_S1600000x1_0_1 (broadcastInDim S1x1 ![1] bcast_S1_S1x1_1 (constantI S1 32 99999#32)))))
      (constantI S_ 1 1#1) reducesTo_S1600000x1_S1600000_d1 h_S_ = fun _ => 1#1 := by
  funext j
  refine reduce_andi_ones _ _ _ _ (fun i => ?_) rfl j
  change IntOp.andi (IntOp.cmpi .sge (s _) 0#32) (IntOp.cmpi .sle (s _) 99999#32) = 1#1
  exact word_mask (h _)

/-- A select whose mask is the broadcast of all ones is its first branch. -/
theorem select_ones (a b : FVec Ideal S1600000x128 .f32) :
    select (broadcastInDim S1600000x128 ![0] bcast_S1600000_S1600000x128_0 (fun _ => 1#1 : IVec S1600000 1)) a b = a := by
  funext i
  exact select_one (a i) (b i)

end Cert.KernelIdeal.Take

end
-- ==== Proof.KValue.lean ====
/- The kernel program's result, unwound boundary by boundary: the tail launch's array of the aggregated features
   that the host operations between the launches make of the first two launches' arrays and the edge index rows. -/
import proofs.«400786_j50714973831856_1_alg».proof.Proof.Gen.KernelIdeal.Frame
import proofs.«400786_j50714973831856_1_alg».proof.Proof.Spec
import proofs.«400786_j50714973831856_1_alg».proof.Proof.Take
import Idealize.ShloMosaic.Lib.StableHlo.Run
import Idealize.ShloMosaic.Lib.ValueIdx
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo Idealize.ShloMosaic.ValueIdx

/-! ## The host operations between the launches, as functions of what they read (at any float instance) -/

variable {F : FTy → Type} [FloatOps F]

/-- Row 0 of the edge index array: the source node of every edge. -/
def srcRow (a1 : IVec S2x1600000 32) : IVec S1600000 32 :=
  shapeCast S1600000 (extractStridedSlice S1x1600000 ![0, 0] a1 slices_S2x1600000_S1x1600000_0_0) shapeCasts_S1x1600000_S1600000

/-- Row 1 of the edge index array: the destination node of every edge. -/
def dstRow (a1 : IVec S2x1600000 32) : IVec S1600000 32 :=
  shapeCast S1600000 (extractStridedSlice S1x1600000 ![1, 0] a1 slices_S2x1600000_S1x1600000_1_0) shapeCasts_S1x1600000_S1600000

/-- A negative index counted from the end: s < 0 ? s + 100000 : s. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- An index vector as the one-column array of start indices a gather or scatter takes. -/
def col (s : IVec S1600000 32) : IVec S1600000x1 32 := broadcastInDim S1600000x1 ![0] bcast_S1600000_S1600000x1_0 s

/-- Which wrapped indices lie in [0, 99999]. -/
def inBounds (s : IVec S1600000 32) : IVec S1600000 1 :=
  Host.reduce IntOp.andi
    (andi (cmpi .sge (col s) (broadcastInDim S1600000x1 ![] bcast_S_S1600000x1 (constantI S_ 32 0#32)))
      (cmpi .sle (col s) (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The rows of xf at the source indices, a not-a-number word on rows whose index is out of bounds. -/
def takeRows (xf : FVec F S100000x128 .f32) (s : IVec S1600000 32) : FVec F S1600000x128 .f32 :=
  select (broadcastInDim S1600000x128 ![0] bcast_S1600000_S1600000x128_0 (inBounds (wrap s)))
    (Host.gather gather_S100000x128_S1600000x1_S1600000x128_1_0_n_n_0_1_1128 xf (col (wrap s)))
    (broadcastInDim S1600000x128 ![] bcast_S_S1600000x128 (constant (F := F) S_ .f32 0x7FC00000#32))

/-- The mean over each node's incoming edges of the messages g·w, an isolated node's count read as one. -/
def aggregate (g w : FVec F S1600000x128 .f32) (d : IVec S1600000 32) : FVec F S100000x128 .f32 :=
  Host.divf
    (Host.scatterAdd scatter_S100000x128_S1600000x1_S1600000x128_1_0_0_1
      (broadcastInDim S100000x128 ![] bcast_S_S100000x128 (constant (F := F) S_ .f32 0x00000000#32)) (col d) (mulf g w))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := F) S_ .f32 0x00000000#32)) (col d)
            (broadcastInDim S1600000 ![] bcast_S_S1600000 (constant (F := F) S_ .f32 0x3F800000#32)))
          (broadcastInDim S100000 ![] bcast_S_S100000 (constant (F := F) S_ .f32 0x3F800000#32)))))

/-- Contents carried to a buffer's own type and back are the contents. -/
theorem ofBuf_toBuf {Val : EltTy → Type} {T : BufTy} (x : TRef sig T) (v : T.Contents Val) : x.ofBuf (x.toBuf v) = v := by
  obtain ⟨r, h, hd, hu⟩ := x
  subst h
  rfl

/-- The gathered rows' buffer holds contents of its own type: carrying them there changes nothing. -/
theorem toBuf_rows (X : FVec F S1600000x128 .f32) :
    (TRef.of main_v10 : TRef sig ⟨S1600000x128, .f32⟩).toBuf (Val := Elt F) X = X := rfl

/-- The source index buffer's contents, read at its own type, are themselves. -/
theorem ofBuf_src (V : Valuation τ sig (Elt F)) :
    (TRef.of main_v7 : TRef sig ⟨S1600000, .i32⟩).ofBuf (Val := Elt F) (V (Proc.devRef .tc main_v7)) = V (Proc.devRef .tc main_v7) := rfl

/-- The second launch's output buffer's contents, read at its own type, are themselves. -/
theorem ofBuf_xf (V : Valuation τ sig (Elt F)) :
    (TRef.of main_v5 : TRef sig ⟨S100000x128, .f32⟩).ofBuf (Val := Elt F) (V (Proc.devRef .tc main_v5)) = V (Proc.devRef .tc main_v5) := rfl

variable (m : (ℓ : Loc nD τ sig) → Buf (Elt F) ℓ) (ρ : Dev nD → PrngReg) (c : Dev nD)

/-! ## From the second launch's exit to the third launch's entry, one stretch of host operations at a time -/

set_option maxHeartbeats 4000000 in
/-- The last stretch: the scatter-mean of the messages. -/
theorem agg_of_stretch3 :
    W10 m ρ c (Proc.devRef .tc main_v23)
      = aggregate (W9 m ρ c (Proc.devRef .tc main_v10)) (W9 m ρ c (Proc.devRef .tc main_v4)) (W9 m ρ c (Proc.devRef .tc main_v9)) := by
  show StableHlo.after hostOps2_2 (W9 m ρ c) (Proc.devRef .tc main_v23) = _
  generalize W9 m ρ c = V9
  after_results
  rfl

set_option maxHeartbeats 4000000 in
/-- The middle stretch: the filled gather of the second launch's rows. -/
theorem take_of_stretch2 :
    W9 m ρ c (Proc.devRef .tc main_v10) = takeRows (W8 m ρ c (Proc.devRef .tc main_v5)) (W8 m ρ c (Proc.devRef .tc main_v7)) := by
  show StableHlo.after hostOps2_1 (W8 m ρ c) (Proc.devRef .tc main_v10) = _
  generalize W8 m ρ c = V8
  after_results_simp
  simp only [ofBuf_toBuf, toBuf_rows, ofBuf_src, ofBuf_xf]
  rfl

set_option maxHeartbeats 4000000 in
theorem v4_through_stretch2 : W9 m ρ c (Proc.devRef .tc main_v4) = W8 m ρ c (Proc.devRef .tc main_v4) := by
  show StableHlo.after hostOps2_1 (W8 m ρ c) (Proc.devRef .tc main_v4) = _
  generalize W8 m ρ c = V8
  after_results

set_option maxHeartbeats 4000000 in
theorem v9_through_stretch2 : W9 m ρ c (Proc.devRef .tc main_v9) = W8 m ρ c (Proc.devRef .tc main_v9) := by
  show StableHlo.after hostOps2_1 (W8 m ρ c) (Proc.devRef .tc main_v9) = _
  generalize W8 m ρ c = V8
  after_results

/-! ## The first stretch after the second launch: the two rows of the edge index array -/

theorem src_of_stretch1 : W8 m ρ c (Proc.devRef .tc main_v7) = srcRow (W7 m ρ c (Proc.devRef .tc main_arg1)) := by
  show StableHlo.after hostOps2 (W7 m ρ c) (Proc.devRef .tc main_v7) = _
  generalize W7 m ρ c = V0
  after_results
  rfl

theorem dst_of_stretch1 : W8 m ρ c (Proc.devRef .tc main_v9) = dstRow (W7 m ρ c (Proc.devRef .tc main_arg1)) := by
  show StableHlo.after hostOps2 (W7 m ρ c) (Proc.devRef .tc main_v9) = _
  generalize W7 m ρ c = V0
  after_results
  rfl

theorem v5_through_stretch1 : W8 m ρ c (Proc.devRef .tc main_v5) = W7 m ρ c (Proc.devRef .tc main_v5) := by
  show StableHlo.after hostOps2 (W7 m ρ c) (Proc.devRef .tc main_v5) = _
  generalize W7 m ρ c = V0
  after_results

theorem v4_through_stretch1 : W8 m ρ c (Proc.devRef .tc main_v4) = W7 m ρ c (Proc.devRef .tc main_v4) := by
  show StableHlo.after hostOps2 (W7 m ρ c) (Proc.devRef .tc main_v4) = _
  generalize W7 m ρ c = V0
  after_results

/-! ## Buffers the tail launch's entry stretches do not write -/

set_option maxHeartbeats 4000000 in
theorem through_stretches_1_2_3 (b : Ref sig .tc)
    (h3 : ∀ op ∈ (hostOps2_2 : List (HloOp τ sig (Elt F))), Proc.devRef .tc b ∉ op.writes)
    (h2 : ∀ op ∈ (hostOps2_1 : List (HloOp τ sig (Elt F))), Proc.devRef .tc b ∉ op.writes)
    (h1 : ∀ op ∈ (hostOps2 : List (HloOp τ sig (Elt F))), Proc.devRef .tc b ∉ op.writes) :
    W10 m ρ c (Proc.devRef .tc b) = W7 m ρ c (Proc.devRef .tc b) :=
  (StableHlo.after_of_forall_not_mem _ _ h3).trans ((StableHlo.after_of_forall_not_mem _ _ h2).trans (StableHlo.after_of_forall_not_mem _ _ h1))

/-! ## The second launch's boundary: its output array, and what it leaves alone -/

/-- The second launch's output array as it leaves it. -/
theorem xf_at_exit1 : W7 m ρ c (Proc.devRef .tc main_v5) = (dat1 (V6 m ρ) c).arrAt 2 cfg1.N := W7_arr m ρ c 2

theorem v4_through_launch1 : W7 m ρ c (Proc.devRef .tc main_v4) = W6 m ρ c (Proc.devRef .tc main_v4) := W7_of_ne m ρ c main_v4 (by decide)
theorem arg1_through_launch1 : W7 m ρ c (Proc.devRef .tc main_arg1) = W6 m ρ c (Proc.devRef .tc main_arg1) := W7_of_ne m ρ c main_arg1 (by decide)

/-! ## The stretch after the first launch: the filter rows of the real edges, widened -/

/-- The first 1600000 rows of the padded filter array, widened from bf16 to f32. -/
def realRows (y : FVec F S1605632x128 .bf16) : FVec F S1600000x128 .f32 :=
  extf .f32 (extractStridedSlice S1600000x128 ![0, 0] y slices_S1605632x128_S1600000x128_0_0) bitsLt_bf16_f32

theorem filt_of_stretch0 : W6 m ρ c (Proc.devRef .tc main_v4) = realRows (W5 m ρ c (Proc.devRef .tc main_v2)) := by
  show StableHlo.after hostOps1 (W5 m ρ c) (Proc.devRef .tc main_v4) = _
  generalize W5 m ρ c = V0
  after_results
  rfl

theorem main_arg0_through_stretch0 : W6 m ρ c (Proc.devRef .tc main_arg0) = W5 m ρ c (Proc.devRef .tc main_arg0) := by
  show StableHlo.after hostOps1 (W5 m ρ c) (Proc.devRef .tc main_arg0) = _
  generalize W5 m ρ c = V0
  after_results

theorem main_arg1_through_stretch0 : W6 m ρ c (Proc.devRef .tc main_arg1) = W5 m ρ c (Proc.devRef .tc main_arg1) := by
  show StableHlo.after hostOps1 (W5 m ρ c) (Proc.devRef .tc main_arg1) = _
  generalize W5 m ρ c = V0
  after_results

theorem main_arg8_through_stretch0 : W6 m ρ c (Proc.devRef .tc main_arg8) = W5 m ρ c (Proc.devRef .tc main_arg8) := by
  show StableHlo.after hostOps1 (W5 m ρ c) (Proc.devRef .tc main_arg8) = _
  generalize W5 m ρ c = V0
  after_results

/-! ## The first launch's boundary -/

/-- The first launch's output array as it leaves it. -/
theorem filt_at_exit0 : W5 m ρ c (Proc.devRef .tc main_v2) = (dat0 (V4 m ρ) c).arrAt 6 cfg0.N := W5_arr m ρ c 6

theorem main_arg0_through_launch0 : W5 m ρ c (Proc.devRef .tc main_arg0) = W4 m ρ c (Proc.devRef .tc main_arg0) := W5_of_ne m ρ c main_arg0 (by decide)
theorem main_arg1_through_launch0 : W5 m ρ c (Proc.devRef .tc main_arg1) = W4 m ρ c (Proc.devRef .tc main_arg1) := W5_of_ne m ρ c main_arg1 (by decide)
theorem main_arg8_through_launch0 : W5 m ρ c (Proc.devRef .tc main_arg8) = W4 m ρ c (Proc.devRef .tc main_arg8) := W5_of_ne m ρ c main_arg8 (by decide)

/-! ## The entry stretch: the two arrays padded to a whole number of blocks, the arguments as launched -/

/-- The attributes padded with 5632 rows of the number the word 0 converts to. -/
def padAttr (a3 : FVec F S1600000x64 .f32) : FVec F S1605632x64 .f32 :=
  pad S1605632x64 ![0, 0] ![5632, 0] ![0, 0] a3 (sitofp (F := F) .f32 (constantI S_ 32 0#32)) pads_S1600000x64_S1605632x64_056320_000 h_S_

/-- The distances padded with 5632 entries of the word of 6.0. -/
def padDist (a2 : FVec F S1600000 .f32) : FVec F S1605632 .f32 :=
  pad S1605632 ![0] ![5632] ![0] a2 (constant (F := F) S_ .f32 0x40C00000#32) pads_S1600000_S1605632_056320 h_S_

theorem attr_at_entry0 : W4 m ρ c (Proc.devRef .tc main_v0) = padAttr (m ((c : Thread nD τ).loc main_arg3)) := by
  show StableHlo.after hostOps0_3 (W3 m ρ c) (Proc.devRef .tc main_v0) = _
  after_results
  rfl

theorem dist_at_entry0 : W4 m ρ c (Proc.devRef .tc main_v1) = padDist (m ((c : Thread nD τ).loc main_arg2)) := by
  show StableHlo.after hostOps0_3 (W3 m ρ c) (Proc.devRef .tc main_v1) = _
  after_results
  rfl

theorem main_arg0_at_entry0 : W4 m ρ c (Proc.devRef .tc main_arg0) = m ((c : Thread nD τ).loc main_arg0) := by
  show StableHlo.after hostOps0_3 (W3 m ρ c) (Proc.devRef .tc main_arg0) = _
  after_results

theorem main_arg1_at_entry0 : W4 m ρ c (Proc.devRef .tc main_arg1) = m ((c : Thread nD τ).loc main_arg1) := by
  show StableHlo.after hostOps0_3 (W3 m ρ c) (Proc.devRef .tc main_arg1) = _
  after_results

theorem main_arg4_at_entry0 : W4 m ρ c (Proc.devRef .tc main_arg4) = m ((c : Thread nD τ).loc main_arg4) := by
  show StableHlo.after hostOps0_3 (W3 m ρ c) (Proc.devRef .tc main_arg4) = _
  after_results

theorem main_arg5_at_entry0 : W4 m ρ c (Proc.devRef .tc main_arg5) = m ((c : Thread nD τ).loc main_arg5) := by
  show StableHlo.after hostOps0_3 (W3 m ρ c) (Proc.devRef .tc main_arg5) = _
  after_results

theorem main_arg6_at_entry0 : W4 m ρ c (Proc.devRef .tc main_arg6) = m ((c : Thread nD τ).loc main_arg6) := by
  show StableHlo.after hostOps0_3 (W3 m ρ c) (Proc.devRef .tc main_arg6) = _
  after_results

theorem main_arg7_at_entry0 : W4 m ρ c (Proc.devRef .tc main_arg7) = m ((c : Thread nD τ).loc main_arg7) := by
  show StableHlo.after hostOps0_3 (W3 m ρ c) (Proc.devRef .tc main_arg7) = _
  after_results

theorem main_arg8_at_entry0 : W4 m ρ c (Proc.devRef .tc main_arg8) = m ((c : Thread nD τ).loc main_arg8) := by
  show StableHlo.after hostOps0_3 (W3 m ρ c) (Proc.devRef .tc main_arg8) = _
  after_results

end Cert.KernelIdeal.KValue

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Region0.lean ====
/- The edge-filter launch over the padded edge axis: after its 196 grid points the output array holds, at padded
   edge e and filter f, the edge filter of the padded attribute and distance arrays the launch finds. -/
import proofs.«400786_j50714973831856_1_alg».proof.Proof.Gen.KernelIdeal.Frame
import proofs.«400786_j50714973831856_1_alg».proof.Proof.Spec
import proofs.«400786_j50714973831856_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-! ## Where the two products read their operands -/

theorem lhs_attr_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem lhs_attr_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
theorem rhs_attr_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
theorem rhs_attr_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

theorem lhs_hid_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_hid_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_hid_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_hid_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- Row p, column k of (a block of attributes) · (the first weight), accumulated into zero. -/
theorem attr_product_at (l : FVec Ideal S8192x64 .bf16) (r : FVec Ideal S64x128 .bf16) (p : Fin 8192) (k : Fin 128) :
    matmul dot_S8192x64_S64x128_S8192x128_1_0_0_1_n_n none l r (constant (F := Ideal) S8192x128 .f32 0x00000000#32) (ix2 p k)
      = ∑ j : Fin 64, l (ix2 p j) * r (ix2 j k) :=
  MatmulAt.matmul_zero_at (A := 8192) (K := 64) (B := 128) dot_S8192x64_S64x128_S8192x128_1_0_0_1_n_n rfl rfl
    lhs_attr_0 lhs_attr_1 rhs_attr_0 rhs_attr_1 none l r p k

/-- Row p, column f of (a block of hidden units) · (the second weight), accumulated into zero. -/
theorem hid_product_at (l : FVec Ideal S8192x128 .bf16) (r : FVec Ideal S128x128 .bf16) (p : Fin 8192) (f : Fin 128) :
    matmul dot_S8192x128_S128x128_S8192x128_1_0_0_1_n_n none l r (constant (F := Ideal) S8192x128 .f32 0x00000000#32) (ix2 p f)
      = ∑ k : Fin 128, l (ix2 p k) * r (ix2 k f) :=
  MatmulAt.matmul_zero_at (A := 8192) (K := 128) (B := 128) dot_S8192x128_S128x128_S8192x128_1_0_0_1_n_n rfl rfl
    lhs_hid_0 lhs_hid_1 rhs_hid_0 rhs_hid_1 none l r p f

/-! ## The layout operations at an entry -/

/-- A bias [128] laid out as a row [1,128] and repeated down 8192 rows reads, at (p, q), the bias at q. -/
theorem bias_rows_at (b : FVec Ideal S128 .f32) (h1 : S128.ShapeCasts S1x128) (h2 : S1x128.Broadcasts S8192x128) (p : Fin 8192) (q : Fin 128) :
    broadcastTo S8192x128 (shapeCast S1x128 b h1) h2 (ix2 p q) = b (ix1 q) := by
  refine (broadcastTo_apply (shapeCast S1x128 b h1) h2 (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (128 : Nat) = 1 then 0 else q.val; rw [if_neg (by decide)]
  · refine shapeCast_apply b h1 (ix2 (0 : Fin 1) q) (ix1 q) ?_
    rw [Shape.rowMajor_val_one, Shape.rowMajor_val_two]
    show q.val = 0 * 128 + q.val
    omega

/-- A column [8192] laid out as [8192,1] and repeated along 128 columns reads, at (p, q), the column at p. -/
theorem column_cols_at (v : FVec Ideal S8192 .f32) (h1 : S8192.ShapeCasts S8192x1) (h2 : S8192x1.Broadcasts S8192x128) (p : Fin 8192) (q : Fin 128) :
    broadcastTo S8192x128 (shapeCast S8192x1 v h1) h2 (ix2 p q) = v (ix1 p) := by
  refine (broadcastTo_apply (shapeCast S8192x1 v h1) h2 (ix2 p q) (ix2 p (0 : Fin 1)) (fun a => ?_)).trans ?_
  · match a with
    | ⟨0, _⟩ => show p.val = if (8192 : Nat) = 1 then 0 else p.val; rw [if_neg (by decide)]
    | ⟨1, _⟩ => show (0 : Nat) = if (1 : Nat) = 1 then 0 else q.val; rw [if_pos rfl]
  · refine shapeCast_apply v h1 (ix2 p (0 : Fin 1)) (ix1 p) ?_
    rw [Shape.rowMajor_val_one, Shape.rowMajor_val_two]
    show p.val = p.val * 1 + 0
    omega

/-! ## The cutoff of one distance -/

/-- A one-bit word widened to 32 bits and read signed is the bit read unsigned. -/
theorem bit_widened_signed (b : BitVec 1) : (((b.setWidth 32).toInt : ℤ) : ℝ) = ((b.toNat : ℕ) : ℝ) := by
  have h : ∀ b : BitVec 1, (b.setWidth 32).toInt = (b.toNat : ℤ) := by decide
  rw [h b, Int.cast_natCast]

/-- The body's cutoff of one distance t — ½·(cos(t·κ)+1) times the comparison t < 5 widened to a word and converted
    signed — is the specification's, whose indicator is the bit read as 0 or 1. -/
theorem cutoff_scalar (t : EReal) :
    (Ideal.ofBits .f32 0x3F000000#32 * (Ideal.cos (t * Ideal.ofBits .f32 0x3F20D97C#32) + Ideal.ofBits .f32 0x3F800000#32))
        * ((((Ideal.cmp .olt t (Ideal.ofBits .f32 0x40A00000#32)).setWidth 32).toInt : ℝ) : EReal)
      = Cert.Spec.cut t := by
  unfold Cert.Spec.cut
  rw [bit_widened_signed]

/-! ## The body's result at an entry -/

/-- The logistic function acts entry by entry. -/
theorem logistic_at {s : Shape} {φ : FTy} (v : FVec Ideal s φ) (i : s.Idx) : logistic v i = Ideal.logistic (v i) := rfl

/-- Entry (p, q) of what the body stores, over a block of 8192 rows: the edge filter of row p of the block. All the
    operations but the two products and the three layout steps act entry by entry, a change of float format is the
    identity on the extended reals, and a shape cast to the same shape is the identity. -/
theorem body_at (x0 : Vec Ideal S8192x64 .f32) (x1 : Vec Ideal S8192 .f32) (x2 : Vec Ideal S64x128 .f32) (x3 : Vec Ideal S128 .f32)
    (x4 : Vec Ideal S128x128 .f32) (x5 : Vec Ideal S128 .f32) (p : Fin 8192) (q : Fin 128) :
    k0_pay1 (F := Ideal) x0 x1 x2 x3 x4 x5 (ix2 p q) = Cert.Spec.filt (E := 8192) x1 x0 x2 x3 x4 x5 p q := by
  unfold k0_pay1
  rw [shapeCast_self, shapeCast_self]
  rw [truncf_apply, mulf_apply, addf_apply, hid_product_at, bias_rows_at, column_cols_at]
  unfold Cert.Spec.filt Cert.Spec.hid Cert.Spec.silu
  refine congrArg₂ (· * ·) (congrArg₂ (· + ·) (Finset.sum_congr rfl fun k _ => ?_) rfl) ?_
  · rw [truncf_apply, truncf_apply, mulf_apply, logistic_at, addf_apply, attr_product_at, bias_rows_at]
    rfl
  · exact cutoff_scalar (x1 (ix1 p))

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The launch's index maps over its 196 points: the attribute, distance and output windows are at block t at
    point t (and at column block 0); the weights and biases are whole, at block 0. -/
theorem block_index : ∀ t : Fin cfg0.N,
    win0_0.index t (0 : Fin 2) = t.val ∧ win0_0.index t (1 : Fin 2) = 0
    ∧ win0_1.index t (0 : Fin 1) = t.val
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The blocks at point t and the arrays the launch finds, by their literal types. -/
abbrev attrBlk (c : Dev nD) (t : Fin cfg0.N) : Vec Ideal S8192x64 .f32 := iblk0 V c 0 t
abbrev distBlk (c : Dev nD) (t : Fin cfg0.N) : Vec Ideal S8192 .f32 := iblk0 V c 1 t
abbrev w1Blk (c : Dev nD) (t : Fin cfg0.N) : Vec Ideal S64x128 .f32 := iblk0 V c 2 t
abbrev b1Blk (c : Dev nD) (t : Fin cfg0.N) : Vec Ideal S128 .f32 := iblk0 V c 3 t
abbrev w2Blk (c : Dev nD) (t : Fin cfg0.N) : Vec Ideal S128x128 .f32 := iblk0 V c 4 t
abbrev b2Blk (c : Dev nD) (t : Fin cfg0.N) : Vec Ideal S128 .f32 := iblk0 V c 5 t
abbrev attrArr (c : Dev nD) : Vec Ideal S1605632x64 .f32 := V c main_v0
abbrev distArr (c : Dev nD) : Vec Ideal S1605632 .f32 := V c main_v1
abbrev w1Arr (c : Dev nD) : Vec Ideal S64x128 .f32 := V c main_arg4
abbrev b1Arr (c : Dev nD) : Vec Ideal S128 .f32 := V c main_arg5
abbrev w2Arr (c : Dev nD) : Vec Ideal S128x128 .f32 := V c main_arg6
abbrev b2Arr (c : Dev nD) : Vec Ideal S128 .f32 := V c main_arg7

/-- Row p of the attribute block at point t is row 8192·t + p of the padded attribute array. -/
theorem attrBlk_at (c : Dev nD) (t : Fin cfg0.N) (p : Fin 8192) (l : Fin 64) (e : Fin 1605632) (he : e.val = t.val * 8192 + p.val) :
    attrBlk V c t (ix2 p l) = attrArr V c (ix2 e l) := by
  obtain ⟨h0, h1, -⟩ := block_index t
  show V c main_v0 (((cfg0.win 0).blk t).view.emb (ix2 p l)) = V c main_v0 (ix2 e l)
  refine congrArg (V c main_v0) (funext fun a => Fin.ext ?_)
  match a with
  | ⟨0, _⟩ => show win0_0.index t (0 : Fin 2) * 8192 + 1 * p.val = e.val; rw [h0, he]; omega
  | ⟨1, _⟩ => show win0_0.index t (1 : Fin 2) * 64 + 1 * l.val = l.val; rw [h1]; omega

/-- Entry p of the distance block at point t is entry 8192·t + p of the padded distance array. -/
theorem distBlk_at (c : Dev nD) (t : Fin cfg0.N) (p : Fin 8192) (e : Fin 1605632) (he : e.val = t.val * 8192 + p.val) :
    distBlk V c t (ix1 p) = distArr V c (ix1 e) := by
  obtain ⟨-, -, h0, -⟩ := block_index t
  show V c main_v1 (((cfg0.win 1).blk t).view.emb (ix1 p)) = V c main_v1 (ix1 e)
  refine congrArg (V c main_v1) (funext fun a => Fin.ext ?_)
  match a with
  | ⟨0, _⟩ => show win0_1.index t (0 : Fin 1) * 8192 + 1 * p.val = e.val; rw [h0, he]; omega

/-- The weight and bias windows are whole: their block at any point is the array. -/
theorem w1Blk_eq (c : Dev nD) (t : Fin cfg0.N) : w1Blk V c t = w1Arr V c := by
  obtain ⟨-, -, -, h0, h1, -⟩ := block_index t
  funext y
  show V c main_arg4 (((cfg0.win 2).blk t).view.emb y) = V c main_arg4 y
  refine congrArg (V c main_arg4) (funext fun a => Fin.ext ?_)
  match a with
  | ⟨0, _⟩ => show win0_2.index t (0 : Fin 2) * 64 + 1 * (y 0).val = (y 0).val; rw [h0]; omega
  | ⟨1, _⟩ => show win0_2.index t (1 : Fin 2) * 128 + 1 * (y 1).val = (y 1).val; rw [h1]; omega
theorem b1Blk_eq (c : Dev nD) (t : Fin cfg0.N) : b1Blk V c t = b1Arr V c := by
  obtain ⟨-, -, -, -, -, h0, -⟩ := block_index t
  funext y
  show V c main_arg5 (((cfg0.win 3).blk t).view.emb y) = V c main_arg5 y
  refine congrArg (V c main_arg5) (funext fun a => Fin.ext ?_)
  match a with
  | ⟨0, _⟩ => show win0_3.index t (0 : Fin 1) * 128 + 1 * (y 0).val = (y 0).val; rw [h0]; omega
theorem w2Blk_eq (c : Dev nD) (t : Fin cfg0.N) : w2Blk V c t = w2Arr V c := by
  obtain ⟨-, -, -, -, -, -, h0, h1, -⟩ := block_index t
  funext y
  show V c main_arg6 (((cfg0.win 4).blk t).view.emb y) = V c main_arg6 y
  refine congrArg (V c main_arg6) (funext fun a => Fin.ext ?_)
  match a with
  | ⟨0, _⟩ => show win0_4.index t (0 : Fin 2) * 128 + 1 * (y 0).val = (y 0).val; rw [h0]; omega
  | ⟨1, _⟩ => show win0_4.index t (1 : Fin 2) * 128 + 1 * (y 1).val = (y 1).val; rw [h1]; omega
theorem b2Blk_eq (c : Dev nD) (t : Fin cfg0.N) : b2Blk V c t = b2Arr V c := by
  obtain ⟨-, -, -, -, -, -, -, -, h0, -⟩ := block_index t
  funext y
  show V c main_arg7 (((cfg0.win 5).blk t).view.emb y) = V c main_arg7 y
  refine congrArg (V c main_arg7) (funext fun a => Fin.ext ?_)
  match a with
  | ⟨0, _⟩ => show win0_5.index t (0 : Fin 1) * 128 + 1 * (y 0).val = (y 0).val; rw [h0]; omega

/-- The edge filter of the arrays the launch finds, as one function of the padded edge and the filter index. -/
abbrev filtArr (c : Dev nD) : S1605632x128.Idx → EReal := fun i =>
  Cert.Spec.filt (E := 1605632) (distArr V c) (attrArr V c) (w1Arr V c) (b1Arr V c) (w2Arr V c) (b2Arr V c) (i 0) (i 1)

/-- The edge filter of an edge reads one entry of the distances and one row of the attributes, so two tables that
    agree there have the same filter. -/
theorem filt_of_row {E E' : Nat} (ew : (⟨1, ![E]⟩ : Shape).Idx → EReal) (ew' : (⟨1, ![E']⟩ : Shape).Idx → EReal)
    (attr : (⟨2, ![E, 64]⟩ : Shape).Idx → EReal) (attr' : (⟨2, ![E', 64]⟩ : Shape).Idx → EReal)
    (w1 : Cert.Spec.WIn.Idx → EReal) (b1 : Cert.Spec.Bias.Idx → EReal) (w2 : Cert.Spec.Sq.Idx → EReal) (b2 : Cert.Spec.Bias.Idx → EReal)
    (e : Fin E) (e' : Fin E') (f : Fin 128) (hew : ew (ix1 e) = ew' (ix1 e')) (hattr : ∀ l : Fin 64, attr (ix2 e l) = attr' (ix2 e' l)) :
    Cert.Spec.filt ew attr w1 b1 w2 b2 e f = Cert.Spec.filt ew' attr' w1 b1 w2 b2 e' f := by
  unfold Cert.Spec.filt Cert.Spec.hid
  rw [hew]
  simp only [hattr]

/-- What point t writes back is block t of the edge filter of the arrays: the body's result at row p of the block is
    the filter of the block's row p, which is row 8192·t + p of the arrays, where the output's block sits. -/
theorem flushed_eq (c : Dev nD) (t : Fin cfg0.N) :
    (dat0 (F := Ideal) V c).flushed 6 t = ((cfg0.win 6).blk t).view.read (Elt Ideal) (filtArr V c) := by
  show (cfg0.win 6).cut (grid0.coords t) ((dat0 (F := Ideal) V c).after 6 t) = _
  rw [after0_6]
  unfold out0_6
  rw [View.canon_unit_zero zeros2]
  simp only [View.ld_unit_zero (S := S8192x64) zeros2, View.ld_unit_zero (S := S8192) zeros1, View.ld_unit_zero (S := S64x128) zeros2,
    View.ld_unit_zero (S := S128) zeros1, View.ld_unit_zero (S := S128x128) zeros2]
  funext j
  obtain ⟨p, q, rfl⟩ : ∃ (p : Fin 8192) (q : Fin 128), j = ix2 p q := ⟨j 0, j 1, eq_ix2 j⟩
  obtain ⟨-, -, -, -, -, -, -, -, -, h0, h1⟩ := block_index t
  have hN : grid0.N = 196 := N_0
  have ht : t.val < 196 := lt_of_lt_of_eq t.isLt hN
  have hrow : t.val * 8192 + p.val < 1605632 := by have := p.isLt; omega
  have hemb : ((cfg0.win 6).blk t).view.emb (ix2 p q) = (ix2 (⟨t.val * 8192 + p.val, hrow⟩ : Fin 1605632) q : S1605632x128.Idx) := by
    funext a; apply Fin.ext
    match a with
    | ⟨0, _⟩ => show win0_6.index t (0 : Fin 2) * 8192 + 1 * p.val = t.val * 8192 + p.val; rw [h0]; omega
    | ⟨1, _⟩ => show win0_6.index t (1 : Fin 2) * 128 + 1 * q.val = q.val; rw [h1]; omega
  show k0_pay1 (F := Ideal) (attrBlk V c t) (distBlk V c t) (w1Blk V c t) (b1Blk V c t) (w2Blk V c t) (b2Blk V c t) (ix2 p q)
    = filtArr V c (((cfg0.win 6).blk t).view.emb (ix2 p q))
  rw [hemb, body_at, w1Blk_eq, b1Blk_eq, w2Blk_eq, b2Blk_eq]
  exact filt_of_row (distBlk V c t) (distArr V c) (attrBlk V c t) (attrArr V c) (w1Arr V c) (b1Arr V c) (w2Arr V c) (b2Arr V c)
    p ⟨t.val * 8192 + p.val, hrow⟩ q (distBlk_at V c t p _ rfl) (fun l => attrBlk_at V c t p l _ rfl)

/-- An entry of the output array is in point t's block iff each coordinate is in the block's range on its axis. -/
theorem mem_blk (t : Fin cfg0.N) (i : S1605632x128.Idx) :
    i ∈ ((cfg0.win 6).blk t).view.set ↔ ∀ a : Fin 2, win0_6.index t a * S8192x128.size a ≤ (i a).val ∧ (i a).val < win0_6.index t a * S8192x128.size a + S8192x128.size a := by
  show i ∈ ((View.whole main_v2).slice (win0_6.rect t)).set ↔ _
  rw [View.set_slice_whole, Rect.mem_set_unit]
  exact Iff.rfl

/-- Every entry of the output array is written back by some point: row r by point r / 8192. -/
theorem covered (i : S1605632x128.Idx) :
    ∃ t : Fin cfg0.N, (cfg0.win 6).flush t = true ∧ i ∈ ((cfg0.win 6).blk t).view.set := by
  have hi0 : (i 0).val < 1605632 := (i 0).isLt
  have hi1 : (i 1).val < 128 := (i 1).isLt
  have hN : grid0.N = 196 := N_0
  obtain ⟨t, ht⟩ : ∃ t : Fin cfg0.N, t.val = (i 0).val / 8192 :=
    ⟨⟨(i 0).val / 8192, lt_of_lt_of_eq (show (i 0).val / 8192 < 196 by omega) hN.symm⟩, rfl⟩
  obtain ⟨-, -, -, -, -, -, -, -, -, h0, h1⟩ := block_index t
  refine ⟨t, flush0_6 t, ?_⟩
  rw [mem_blk]
  intro a
  match a with
  | ⟨0, _⟩ => show win0_6.index t (0 : Fin 2) * 8192 ≤ (i 0).val ∧ (i 0).val < win0_6.index t (0 : Fin 2) * 8192 + 8192; rw [h0, ht]; omega
  | ⟨1, _⟩ => show win0_6.index t (1 : Fin 2) * 128 ≤ (i 1).val ∧ (i 1).val < win0_6.index t (1 : Fin 2) * 128 + 128; rw [h1]; omega

/-- After the 196 points the output array is the edge filter of the arrays the launch finds. -/
theorem array_after (c : Dev nD) : (dat0 (F := Ideal) V c).arrAt 6 cfg0.N = filtArr V c :=
  (dat0 (F := Ideal) V c).arrAt_eq_of_cover 6 (filtArr V c) (fun t _ => flushed_eq V c t) covered

theorem value (c : Dev nD) (e : Fin 1605632) (f : Fin 128) :
    (dat0 (F := Ideal) V c).arrAt 6 cfg0.N (ix2 e f)
      = Cert.Spec.filt (E := 1605632) (V c main_v1) (V c main_v0) (V c main_arg4) (V c main_arg5) (V c main_arg6) (V c main_arg7) e f :=
  congrFun (array_after V c) (ix2 e f)

end Cert.KernelIdeal.Region0

end
-- ==== Proof.Region1.lean ====
/- The first linear layer's launch: after its 50 grid points the output array holds, at node n and feature f,
   Σ_k x[n,k]·w[k,f] of the arrays the launch finds. -/
import proofs.«400786_j50714973831856_1_alg».proof.Proof.Gen.KernelIdeal.Frame
import proofs.«400786_j50714973831856_1_alg».proof.Proof.Spec
import proofs.«400786_j50714973831856_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-! ## Where the product's dimension numbers read their operands

The block product contracts the left operand's second axis with the right operand's first and has no batch axis:
entry (row, column) of the result reads the left operand at (row, k) and the right operand at (k, column). -/

/-- The left operand is read at the result's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The left operand's column is the contracted position. -/
theorem lhs_contracted (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted position. -/
theorem rhs_contracted (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand is read at the result's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## One block's result, entry by entry -/

/-- Entry (p, q) of what the body stores, from a block of 2000 rows `x` and the whole weight `w`: both operands change
    format only (the identity over the extended reals), and the product into the zero accumulator is the sum over the
    128 contracted positions of `x[p,k]·w[k,q]`. -/
theorem block_entry (x : Vec Ideal S2000x128 .f32) (w : Vec Ideal S128x128 .f32) (p : Fin 2000) (q : Fin 128) :
    k1_pay1 (F := Ideal) x w (ix2 p q) = ∑ k : Fin 128, x (ix2 p k) * w (ix2 k q) := by
  unfold k1_pay1
  exact Idealize.ShloMosaic.MatmulAt.matmul_zero_at dot_S2000x128_S128x128_S2000x128_1_0_0_1_n_n rfl rfl
    lhs_row lhs_contracted rhs_contracted rhs_col none
    (truncf .bf16 x bitsLt_bf16_f32) (truncf .bf16 w bitsLt_bf16_f32) p q

/-! ## From blocks to the array -/

/-- The stored rectangle's offsets, however spelt, are zero. -/
theorem offsets_zero : (![0, 0] : Fin 2 → Nat) = fun _ => 0 := funext fun a => by fin_cases a <;> rfl

/-- The whole output array as one function of the two input arrays: at index `i`, row `i 0` of the node features against
    column `i 1` of the weight. -/
abbrev product (x : Vec Ideal S100000x128 .f32) (w : Vec Ideal S128x128 .f32) : S100000x128.Idx → Elt Ideal .f32 :=
  fun i => Cert.Spec.lin1 x w (i 0) (i 1)

/-- The index maps over the 50 grid points: the input rows' block and the output's block are both block `t` of the rows,
    at column block 0; the weight is one block at (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the node-feature block at point `t` is row `2000·t + p` of the node-feature array. -/
theorem rows_block (c : Dev nD) (t : Fin cfg1.N) (p : Fin 2000) (k : Fin 128) (n : Fin 100000)
    (hn : n.val = t.val * 2000 + p.val) :
    (iblk1 V c 0 t : Vec Ideal S2000x128 .f32) (ix2 p k) = (V c main_arg0 : Vec Ideal S100000x128 .f32) (ix2 n k) := by
  obtain ⟨e0, e1, -⟩ := index_maps t
  unfold iblk1
  rw [View.read_apply]
  show V c main_arg0 _ = V c main_arg0 _
  congr 1
  funext a
  apply Fin.ext
  match a with
  | ⟨0, _⟩ => show win1_0.index t 0 * 2000 + 1 * p.val = n.val; rw [e0, hn]; omega
  | ⟨1, _⟩ => show win1_0.index t 1 * 128 + 1 * k.val = k.val; rw [e1]; omega

/-- The weight's one block, at every point, is the weight array. -/
theorem weight_block (c : Dev nD) (t : Fin cfg1.N) (k : Fin 128) (q : Fin 128) :
    (iblk1 V c 1 t : Vec Ideal S128x128 .f32) (ix2 k q) = (V c main_arg8 : Vec Ideal S128x128 .f32) (ix2 k q) := by
  obtain ⟨-, -, e2, e3, -⟩ := index_maps t
  unfold iblk1
  rw [View.read_apply]
  show V c main_arg8 _ = V c main_arg8 _
  congr 1
  funext a
  apply Fin.ext
  match a with
  | ⟨0, _⟩ => show win1_1.index t 0 * 128 + 1 * k.val = k.val; rw [e2]; omega
  | ⟨1, _⟩ => show win1_1.index t 1 * 128 + 1 * q.val = q.val; rw [e3]; omega

/-- A block's entry (p, q) is the array product's entry (n, q) when the block's row `p` is the array's row `n` and the
    weight block is the weight, over the contracted positions. -/
theorem block_is_product (xb : Vec Ideal S2000x128 .f32) (wb : Vec Ideal S128x128 .f32)
    (X : Vec Ideal S100000x128 .f32) (W : Vec Ideal S128x128 .f32) (p : Fin 2000) (q : Fin 128) (n : Fin 100000)
    (hx : ∀ k : Fin 128, xb (ix2 p k) = X (ix2 n k)) (hw : ∀ k : Fin 128, wb (ix2 k q) = W (ix2 k q)) :
    k1_pay1 (F := Ideal) xb wb (ix2 p q) = Cert.Spec.lin1 X W n q := by
  rw [block_entry]
  unfold Cert.Spec.lin1
  exact Finset.sum_congr rfl fun k _ => by rw [hx k, hw k]

/-- The product's entry depends on the row and the column only through their values. -/
theorem product_entry_congr (X : Vec Ideal S100000x128 .f32) (W : Vec Ideal S128x128 .f32) {n n' : Fin 100000} {f f' : Fin 128}
    (hn : n.val = n'.val) (hf : f.val = f'.val) : Cert.Spec.lin1 X W n f = Cert.Spec.lin1 X W n' f' := by
  obtain rfl : n = n' := Fin.ext hn
  obtain rfl : f = f' := Fin.ext hf
  rfl

/-- What point `t` writes back is block `t` of the product of the arrays the launch finds. -/
theorem written_back (c : Dev nD) (t : Fin cfg1.N) :
    (dat1 (F := Ideal) V c).flushed 2 t
      = ((cfg1.win 2).blk t).view.read (Elt Ideal) (product (V c main_arg0) (V c main_arg8)) := by
  show (cfg1.win 2).cut (grid1.coords t) ((dat1 (F := Ideal) V c).after 2 t) = _
  rw [after1_2]
  unfold out1_2
  rw [View.canon_unit_zero offsets_zero]
  simp only [View.ld_unit_zero (S := S2000x128) offsets_zero, View.ld_unit_zero (S := S128x128) offsets_zero]
  funext j
  obtain ⟨p, q, rfl⟩ : ∃ (p : Fin 2000) (q : Fin 128), j = ix2 p q := ⟨j 0, j 1, eq_ix2 j⟩
  obtain ⟨-, -, -, -, e4, e5⟩ := index_maps t
  have hN : cfg1.N = 50 := N_1
  have ht : t.val < 50 := hN ▸ t.isLt
  refine (block_is_product (iblk1 V c 0 t) (iblk1 V c 1 t) (V c main_arg0) (V c main_arg8) p q
    ⟨t.val * 2000 + p.val, by omega⟩ (fun k => rows_block V c t p k _ rfl) (fun k => weight_block V c t k q)).trans ?_
  show Cert.Spec.lin1 (V c main_arg0) (V c main_arg8) ⟨t.val * 2000 + p.val, by omega⟩ q
    = Cert.Spec.lin1 (V c main_arg0) (V c main_arg8) ((((cfg1.win 2).blk t).view.emb (ix2 p q)) 0) ((((cfg1.win 2).blk t).view.emb (ix2 p q)) 1)
  refine product_entry_congr (V c main_arg0) (V c main_arg8) ?_ ?_
  · show t.val * 2000 + p.val = win1_2.index t 0 * 2000 + 1 * p.val
    rw [e4]; omega
  · show q.val = win1_2.index t 1 * 128 + 1 * q.val
    rw [e5]; omega
/-- An index of the output array is in point `t`'s block iff each coordinate is in the block's range on its axis. -/
theorem in_block (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v5).slice (win1_2.rect t)).set ↔ _
  rw [View.set_slice_whole, Rect.mem_set_unit]
  exact Iff.rfl

/-- Every entry of the output array is written back by the point of its row's block: row `r` by point `r / 2000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, e4, e5⟩ := index_maps t
  refine ⟨t, flush1_2 t, ?_⟩
  rw [in_block]
  intro a
  match a with
  | ⟨0, _⟩ =>
    show win1_2.index t 0 * 2000 ≤ (i 0).val ∧ (i 0).val < win1_2.index t 0 * 2000 + 2000
    rw [e4, ht]; omega
  | ⟨1, _⟩ =>
    show win1_2.index t 1 * 128 ≤ (i 1).val ∧ (i 1).val < win1_2.index t 1 * 128 + 128
    rw [e5]; omega

theorem value (c : Dev nD) (n : Fin 100000) (f : Fin 128) :
    (dat1 (F := Ideal) V c).arrAt 2 cfg1.N (ix2 n f) = Cert.Spec.lin1 (V c main_arg0) (V c main_arg8) n f := by
  have h := (dat1 (F := Ideal) V c).arrAt_eq_of_cover 2 (product (V c main_arg0) (V c main_arg8))
    (fun t _ => written_back V c t) covered
  exact congrFun h (ix2 n f)

end Cert.KernelIdeal.Region1

end
-- ==== Proof.Region2.lean ====
/- The tail launch: after its 50 grid points the output array holds the block's tail of the aggregated features
   the launch finds.

   The body, at one entry (p, q) of a 2000-row block, is Σ_k silu(Σ_l x[p,l]·w2[l,k] + b2[k])·w[k,q] + b[q]: two
   products into zero accumulators (each a sum over the shared axis of 128), a bias laid as one row and repeated over
   the rows, and z·σ(z) between them; the changes of float format are the identity over the extended reals. Point t
   reads rows 2000·t … 2000·t + 1999 of the features and the whole weights and biases, and writes back the same rows
   of the output; the 50 blocks tile the 100000 rows, so the output array is the tail of the features entry by entry. -/
import proofs.«400786_j50714973831856_1_alg».proof.Proof.Gen.KernelIdeal.Frame
import proofs.«400786_j50714973831856_1_alg».proof.Proof.Spec
import proofs.«400786_j50714973831856_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-! ## Where the product's dimension numbers read their operands -/

/-- The left operand's row is the result's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contracted index. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contracted index. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the result's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000 × 128] by [128 × 128] product into zero, at one entry: the sum over the shared axis. -/
theorem prod_at {φ₁ φ₂ : FTy} (l : FVec Ideal S2000x128 φ₁) (r : FVec Ideal S128x128 φ₂) (p : Fin 2000) (q : Fin 128) :
    FloatOps.matmul dot_S2000x128_S128x128_S2000x128_1_0_0_1_n_n none l r (constant (F := Ideal) S2000x128 .f32 0x00000000#32) (ix2 p q)
      = ∑ k : Fin 128, l (ix2 p k) * r (ix2 k q) :=
  Idealize.ShloMosaic.MatmulAt.matmul_zero_at dot_S2000x128_S128x128_S2000x128_1_0_0_1_n_n rfl rfl lhs_row lhs_col rhs_row rhs_col none l r p q

/-- A bias [128] laid as one row [1, 128] and repeated over 2000 rows reads, at (p, q), the bias at q. -/
theorem bias_at (b : Vec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- THE BODY AT ONE ENTRY: entry (p, q) of what the body stores is the tail of row p of the feature block:
    Σ_k silu(Σ_l x[p,l]·w2[l,k] + b2[k])·w[k,q] + b[q]. -/
theorem payload_at (x : Vec Ideal S2000x128 .f32) (w2 : Vec Ideal S128x128 .f32) (b2 : Vec Ideal S128 .f32)
    (w : Vec Ideal S128x128 .f32) (b : Vec Ideal S128 .f32) (p : Fin 2000) (q : Fin 128) :
    k2_pay1 (F := Ideal) x w2 b2 w b (ix2 p q)
      = (∑ k : Fin 128, Cert.Spec.silu ((∑ l : Fin 128, x (ix2 p l) * w2 (ix2 l k)) + b2 (ix1 k)) * w (ix2 k q)) + b (ix1 q) := by
  unfold k2_pay1
  simp only [matmul, shapeCast_self]
  rw [addf_apply, bias_at, prod_at]
  refine congrArg (· + b (ix1 q)) (Finset.sum_congr rfl fun k _ => ?_)
  rw [truncf_apply, truncf_apply, mulf_apply]
  show (_ * FloatOps.logistic _) * _ = _
  rw [addf_apply, bias_at, prod_at]
  simp only [truncf_apply, Ideal.logistic_def]
  rfl

/-! ## The windows' blocks as rows of their arrays -/

theorem zero_off2 : (![0, 0] : Fin 2 → Nat) = fun _ => 0 := funext fun a => by fin_cases a <;> rfl
theorem zero_off1 : (![0] : Fin 1 → Nat) = fun _ => 0 := funext fun a => by fin_cases a <;> rfl

/-- The printed index maps, decided over the 50 grid points: the feature window and the output window sit at block
    row t, column block 0; the weights and biases are whole, at block 0. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The aggregated features [100000, 128] as the launch finds them. -/
abbrev aggArr (c : Dev nD) : Vec Ideal S100000x128 .f32 := V c main_v23
/-- The first weight [128, 128]. -/
abbrev w2Arr (c : Dev nD) : Vec Ideal S128x128 .f32 := V c main_arg9
/-- The first bias [128]. -/
abbrev b2Arr (c : Dev nD) : Vec Ideal S128 .f32 := V c main_arg10
/-- The second weight [128, 128]. -/
abbrev wArr (c : Dev nD) : Vec Ideal S128x128 .f32 := V c main_arg11
/-- The second bias [128]. -/
abbrev bArr (c : Dev nD) : Vec Ideal S128 .f32 := V c main_arg12

/-- The feature block of grid point t: 2000 rows. -/
abbrev aggBlk (c : Dev nD) (t : Fin cfg2.N) : Vec Ideal S2000x128 .f32 := iblk2 V c 0 t
abbrev w2Blk (c : Dev nD) (t : Fin cfg2.N) : Vec Ideal S128x128 .f32 := iblk2 V c 1 t
abbrev b2Blk (c : Dev nD) (t : Fin cfg2.N) : Vec Ideal S128 .f32 := iblk2 V c 2 t
abbrev wBlk (c : Dev nD) (t : Fin cfg2.N) : Vec Ideal S128x128 .f32 := iblk2 V c 3 t
abbrev bBlk (c : Dev nD) (t : Fin cfg2.N) : Vec Ideal S128 .f32 := iblk2 V c 4 t

/-- Row p of the feature block of point t is row 2000·t + p of the array. -/
theorem aggBlk_at (c : Dev nD) (t : Fin cfg2.N) (p : Fin 2000) (l : Fin 128) (n : Fin 100000)
    (hn : n.val = t.val * 2000 + p.val) : aggBlk V c t (ix2 p l) = aggArr V c (ix2 n l) := by
  obtain ⟨e0, e1, -⟩ := index_facts t
  show V c main_v23 (((cfg2.win 0).blk t).view.emb (ix2 p l)) = V c main_v23 (ix2 n l)
  refine congrArg (V c main_v23) (funext fun a => Fin.ext ?_)
  match a with
  | ⟨0, _⟩ => show win2_0.index t (0 : Fin 2) * 2000 + 1 * p.val = n.val; omega
  | ⟨1, _⟩ => show win2_0.index t (1 : Fin 2) * 128 + 1 * l.val = l.val; omega

/-- The first weight's block is the weight. -/
theorem w2Blk_at (c : Dev nD) (t : Fin cfg2.N) (l k : Fin 128) : w2Blk V c t (ix2 l k) = w2Arr V c (ix2 l k) := by
  obtain ⟨-, -, e0, e1, -⟩ := index_facts t
  show V c main_arg9 (((cfg2.win 1).blk t).view.emb (ix2 l k)) = V c main_arg9 (ix2 l k)
  refine congrArg (V c main_arg9) (funext fun a => Fin.ext ?_)
  match a with
  | ⟨0, _⟩ => show win2_1.index t (0 : Fin 2) * 128 + 1 * l.val = l.val; omega
  | ⟨1, _⟩ => show win2_1.index t (1 : Fin 2) * 128 + 1 * k.val = k.val; omega

/-- The first bias's block is the bias. -/
theorem b2Blk_at (c : Dev nD) (t : Fin cfg2.N) (k : Fin 128) : b2Blk V c t (ix1 k) = b2Arr V c (ix1 k) := by
  obtain ⟨-, -, -, -, e0, -⟩ := index_facts t
  show V c main_arg10 (((cfg2.win 2).blk t).view.emb (ix1 k)) = V c main_arg10 (ix1 k)
  refine congrArg (V c main_arg10) (funext fun a => Fin.ext ?_)
  match a with
  | ⟨0, _⟩ => show win2_2.index t (0 : Fin 1) * 128 + 1 * k.val = k.val; omega

/-- The second weight's block is the weight. -/
theorem wBlk_at (c : Dev nD) (t : Fin cfg2.N) (k q : Fin 128) : wBlk V c t (ix2 k q) = wArr V c (ix2 k q) := by
  obtain ⟨-, -, -, -, -, e0, e1, -⟩ := index_facts t
  show V c main_arg11 (((cfg2.win 3).blk t).view.emb (ix2 k q)) = V c main_arg11 (ix2 k q)
  refine congrArg (V c main_arg11) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The second bias's block is the bias. -/
theorem bBlk_at (c : Dev nD) (t : Fin cfg2.N) (q : Fin 128) : bBlk V c t (ix1 q) = bArr V c (ix1 q) := by
  obtain ⟨-, -, -, -, -, -, -, e0, -⟩ := index_facts t
  show V c main_arg12 (((cfg2.win 4).blk t).view.emb (ix1 q)) = V c main_arg12 (ix1 q)
  refine congrArg (V c main_arg12) (funext fun a => Fin.ext ?_)
  match a with
  | ⟨0, _⟩ => show win2_4.index t (0 : Fin 1) * 128 + 1 * q.val = q.val; omega

/-! ## What the launch leaves in the output array -/

/-- The whole output array as one function of the input arrays: entry (n, f) is the tail of row n. -/
abbrev tailArr (c : Dev nD) : Vec Ideal S100000x128 .f32 := fun i =>
  Cert.Spec.tail (aggArr V c) (w2Arr V c) (b2Arr V c) (wArr V c) (bArr V c) (i 0) (i 1)

/-- Entry (p, q) of the output block of point t sits at row 2000·t + p, column q of the output array. -/
theorem outBlk_emb (t : Fin cfg2.N) (p : Fin 2000) (q : Fin 128) (n : Fin 100000) (hn : n.val = t.val * 2000 + p.val) :
    ((cfg2.win 5).blk t).view.emb (ix2 p q) = ix2 n q := by
  obtain ⟨-, -, -, -, -, -, -, -, e0, e1⟩ := index_facts t
  refine funext fun a => Fin.ext ?_
  match a with
  | ⟨0, _⟩ => show win2_5.index t (0 : Fin 2) * 2000 + 1 * p.val = n.val; omega
  | ⟨1, _⟩ => show win2_5.index t (1 : Fin 2) * 128 + 1 * q.val = q.val; omega

/-- WHAT POINT t WRITES BACK is block t of the tail of the aggregated features: each of its 2000 rows depends on the
    same row of the feature block and on the whole weights and biases. -/
theorem flushed_eq (c : Dev nD) (t : Fin cfg2.N) :
    (dat2 (F := Ideal) V c).flushed 5 t = ((cfg2.win 5).blk t).view.read (Elt Ideal) (tailArr V c) := by
  show (cfg2.win 5).cut (grid2.coords t) ((dat2 (F := Ideal) V c).after 5 t) = _
  rw [after2_5]
  unfold out2_5
  rw [View.canon_unit_zero zero_off2]
  simp only [View.ld_unit_zero (S := S2000x128) zero_off2, View.ld_unit_zero (S := S128x128) zero_off2, View.ld_unit_zero (S := S128) zero_off1]
  funext j
  obtain ⟨p, q, rfl⟩ : ∃ (p : Fin 2000) (q : Fin 128), j = ix2 p q := ⟨j 0, j 1, eq_ix2 j⟩
  have ht : t.val < 50 := by have h := t.isLt; have hN : cfg2.N = 50 := N_2; omega
  have hp : p.val < 2000 := p.isLt
  show k2_pay1 (F := Ideal) (aggBlk V c t) (w2Blk V c t) (b2Blk V c t) (wBlk V c t) (bBlk V c t) (ix2 p q)
    = tailArr V c (((cfg2.win 5).blk t).view.emb (ix2 p q))
  rw [payload_at, outBlk_emb t p q ⟨t.val * 2000 + p.val, by omega⟩ rfl]
  show _ = Cert.Spec.tail (aggArr V c) (w2Arr V c) (b2Arr V c) (wArr V c) (bArr V c) ⟨t.val * 2000 + p.val, by omega⟩ q
  unfold Cert.Spec.tail
  rw [bBlk_at]
  refine congrArg (· + bArr V c (ix1 q)) (Finset.sum_congr rfl fun k _ => ?_)
  rw [wBlk_at, b2Blk_at]
  refine congrArg (fun s => Cert.Spec.silu (s + b2Arr V c (ix1 k)) * wArr V c (ix2 k q)) (Finset.sum_congr rfl fun l _ => ?_)
  rw [w2Blk_at, aggBlk_at V c t p l ⟨t.val * 2000 + p.val, by omega⟩ rfl]

/-- An index of the output array is in point t's block iff each coordinate is in the block's range on its axis. -/
theorem mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v24).slice (win2_5.rect t)).set ↔ _
  rw [View.set_slice_whole, Rect.mem_set_unit]
  exact Iff.rfl

/-- Every row of the output is in the block of the point numbered row / 2000, which writes back. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_5 _, ?_⟩
  rw [mem_blk]
  obtain ⟨-, -, -, -, -, -, -, -, e0, e1⟩ := index_facts ⟨(i 0).val / 2000, by rw [hN]; omega⟩
  intro a
  match a with
  | ⟨0, _⟩ =>
    show win2_5.index ⟨(i 0).val / 2000, _⟩ (0 : Fin 2) * 2000 ≤ (i 0).val ∧ (i 0).val < win2_5.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, _⟩ (1 : Fin 2) * 128 ≤ (i 1).val ∧ (i 1).val < win2_5.index ⟨(i 0).val / 2000, _⟩ (1 : Fin 2) * 128 + 128
    rw [e1]; omega

/-- THE OUTPUT ARRAY after the 50 points is the tail of the aggregated features, entry by entry. -/
theorem final (c : Dev nD) : (dat2 (F := Ideal) V c).arrAt 5 cfg2.N = tailArr V c :=
  (dat2 (F := Ideal) V c).arrAt_eq_of_cover 5 (tailArr V c) (fun t _ => flushed_eq V c t) cover

theorem value (c : Dev nD) (n : Fin 100000) (f : Fin 128) :
    (dat2 (F := Ideal) V c).arrAt 5 cfg2.N (ix2 n f)
      = Cert.Spec.tail (V c main_v23) (V c main_arg9) (V c main_arg10) (V c main_arg11) (V c main_arg12) n f := by
  rw [final]

end Cert.KernelIdeal.Region2

end
-- ==== Proof.RefStages.lean ====
/- The reference's stages read entry by entry: its first linear layer, its edge filter and its tail are the
   specification's functions of their operands. -/
import proofs.«400786_j50714973831856_1_alg».proof.Proof.Gen.ReferenceIdeal.Read
import proofs.«400786_j50714973831856_1_alg».proof.Proof.Spec
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.ReferenceIdeal.Stages

open Cert.ReferenceIdeal Cert.ReferenceIdeal.Gen Cert.ReferenceIdeal.Read Idealize.ShloMosaic Idealize.ShloMosaic.TcCoe Idealize.SL.Sem Idealize.ShloMosaic.ValueIdx

/-- The reference spells the logistic function with the word of 1.0 for its two ones: z·(1/(1+e^{-z})) is silu z. -/
theorem silu_words (z : EReal) :
    z * Ideal.div (Ideal.ofBits .f32 0x3F800000#32) (Ideal.ofBits .f32 0x3F800000#32 + Ideal.exp (-z)) = Cert.Spec.silu z := by
  rw [Ideal.ofBits_one_f32]
  rfl

/-- The cosine cutoff as the reference computes it, at any edge: ½·(cos(t·κ)+1)·[t < 5] at t the edge's distance. -/
theorem v14_at (x2 : (⟨S1600000, .f32⟩ : BufTy).Contents (Elt Ideal)) (j : S1600000.Idx) :
    val_main_v14 (F := Ideal) x2 j = Cert.Spec.cut (x2 j) := by
  rw [val_main_v14_apply, val_main_v10_apply, val_main_v9_apply, val_main_cst_1_apply, val_main_v8_apply, val_main_v6_apply,
    val_main_v5_apply, val_main_v4_apply, val_main_cst_apply, val_main_v7_apply, val_main_cst_0_apply, val_main_v13_apply,
    val_main_v12_apply, val_main_v11_apply, val_main_cst_2_apply]
  simp only [Ideal.mulf_def, Ideal.addf_def, Ideal.hostUnary_cos_def, Ideal.ofBits_def, Ideal.cmpf_def]
  rfl

/-- The first silu call, at any index: silu of its argument there. -/
theorem v19_at (x3 : (⟨S1600000x64, .f32⟩ : BufTy).Contents (Elt Ideal)) (x4 : (⟨S64x128, .f32⟩ : BufTy).Contents (Elt Ideal)) (x5 : (⟨S128, .f32⟩ : BufTy).Contents (Elt Ideal)) (i : S1600000x128.Idx) :
    val_main_v19 (F := Ideal) x3 x4 x5 i = Cert.Spec.silu (val_main_v18 (F := Ideal) x3 x4 x5 i) := by
  rw [val_main_v19_apply, val_main_call0_v5_apply, val_main_call0_v4_apply, val_main_call0_cst_0_apply, val_main_call0_v3_apply,
    val_main_call0_v2_apply, val_main_call0_cst_apply, val_main_call0_v1_apply, val_main_call0_v0_apply]
  simp only [Ideal.mulf_def, Ideal.addf_def, Ideal.hostDivf_def, Ideal.hostUnary_exp_def, Ideal.hostNegf_def, Ideal.negf_def, Ideal.ofBits_def]
  exact silu_words _

/-- The filter's pre-activation at edge e, hidden unit k: Σ_l attr[e,l]·w1[l,k] + b1[k]. -/
theorem v18_at (x3 : (⟨S1600000x64, .f32⟩ : BufTy).Contents (Elt Ideal)) (x4 : (⟨S64x128, .f32⟩ : BufTy).Contents (Elt Ideal)) (x5 : (⟨S128, .f32⟩ : BufTy).Contents (Elt Ideal)) (e : Fin 1600000) (k : Fin 128) :
    val_main_v18 (F := Ideal) x3 x4 x5 (ix2 e k) = (∑ l : Fin 64, x3 (ix2 e l) * x4 (ix2 l k)) + x5 (ix1 k) := by
  have eb : idx_main_v16 (idx_main_v17 (ix2 e k)) = ix1 k := funext fun a => Fin.ext (by
    match a with
    | ⟨0, _⟩ => rfl)
  rw [val_main_v18_apply, val_main_v15_apply, val_main_v17_apply, val_main_v16_apply, eb, Ideal.addf_def]
  refine congrArg (· + x5 (ix1 k)) (Finset.sum_congr rfl fun l _ => ?_)
  have el : lidx_main_v15 (ix2 e k) l = ix2 e l := funext fun a => Fin.ext (by
    match a with
    | ⟨0, _⟩ => rfl
    | ⟨1, _⟩ => rfl)
  have er : ridx_main_v15 (ix2 e k) l = ix2 l k := funext fun a => Fin.ext (by
    match a with
    | ⟨0, _⟩ => rfl
    | ⟨1, _⟩ => rfl)
  rw [el, er]

/-- The second silu call, at any index: silu of its argument there. -/
theorem v52_at (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S1600000x64, .f32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (i : S100000x128.Idx) :
    val_main_v52 (F := Ideal) x0 x1 x2 x3 x4 x5 x6 x7 x8 x9 x10 i = Cert.Spec.silu (val_main_v51 (F := Ideal) x0 x1 x2 x3 x4 x5 x6 x7 x8 x9 x10 i) := by
  rw [val_main_v52_apply, val_main_call1_v5_apply, val_main_call1_v4_apply, val_main_call1_cst_0_apply, val_main_call1_v3_apply,
    val_main_call1_v2_apply, val_main_call1_cst_apply, val_main_call1_v1_apply, val_main_call1_v0_apply]
  simp only [Ideal.mulf_def, Ideal.addf_def, Ideal.hostDivf_def, Ideal.hostUnary_exp_def, Ideal.hostNegf_def, Ideal.negf_def, Ideal.ofBits_def]
  exact silu_words _

/-- The tail's pre-activation at node n, hidden unit k: Σ_l agg[n,l]·w2[l,k] + b2[k]. -/
theorem v51_at (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S1600000x64, .f32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (n : Fin 100000) (k : Fin 128) :
    val_main_v51 (F := Ideal) x0 x1 x2 x3 x4 x5 x6 x7 x8 x9 x10 (ix2 n k)
      = (∑ l : Fin 128, val_main_v47 (F := Ideal) x0 x1 x2 x3 x4 x5 x6 x7 x8 (ix2 n l) * x9 (ix2 l k)) + x10 (ix1 k) := by
  have eb : idx_main_v49 (idx_main_v50 (ix2 n k)) = ix1 k := funext fun a => Fin.ext (by
    match a with
    | ⟨0, _⟩ => rfl)
  rw [val_main_v51_apply, val_main_v48_apply, val_main_v50_apply, val_main_v49_apply, eb, Ideal.addf_def]
  refine congrArg (· + x10 (ix1 k)) (Finset.sum_congr rfl fun l _ => ?_)
  have el : lidx_main_v48 (ix2 n k) l = ix2 n l := funext fun a => Fin.ext (by
    match a with
    | ⟨0, _⟩ => rfl
    | ⟨1, _⟩ => rfl)
  have er : ridx_main_v48 (ix2 n k) l = ix2 l k := funext fun a => Fin.ext (by
    match a with
    | ⟨0, _⟩ => rfl
    | ⟨1, _⟩ => rfl)
  rw [el, er]

/-- x·lin1_w at node n, feature f. -/
theorem lin1_eq (x0 : (⟨S100000x128, .f32⟩ : BufTy).Contents (Elt Ideal)) (x8 : (⟨S128x128, .f32⟩ : BufTy).Contents (Elt Ideal)) (n : Fin 100000) (f : Fin 128) :
    val_main_v27 (F := Ideal) x0 x8 (ix2 n f) = Cert.Spec.lin1 x0 x8 n f := by
  rw [val_main_v27_apply]
  unfold Cert.Spec.lin1
  refine Finset.sum_congr rfl fun k _ => ?_
  have el : lidx_main_v27 (ix2 n f) k = ix2 n k := funext fun a => Fin.ext (by
    match a with
    | ⟨0, _⟩ => rfl
    | ⟨1, _⟩ => rfl)
  have er : ridx_main_v27 (ix2 n f) k = ix2 k f := funext fun a => Fin.ext (by
    match a with
    | ⟨0, _⟩ => rfl
    | ⟨1, _⟩ => rfl)
  rw [el, er]

/-- The edge filter at edge e, filter f. -/
theorem filt_eq (x2 : (⟨S1600000, .f32⟩ : BufTy).Contents (Elt Ideal)) (x3 : (⟨S1600000x64, .f32⟩ : BufTy).Contents (Elt Ideal)) (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (e : Fin 1600000) (f : Fin 128) :
    val_main_v26 (F := Ideal) x2 x3 x4 x5 x6 x7 (ix2 e f) = Cert.Spec.filt (E := 1600000) x2 x3 x4 x5 x6 x7 e f := by
  have eb : idx_main_v21 (idx_main_v22 (ix2 e f)) = ix1 f := funext fun a => Fin.ext (by
    match a with
    | ⟨0, _⟩ => rfl)
  have ec : idx_main_v24 (idx_main_v25 (ix2 e f)) = ix1 e := funext fun a => Fin.ext (by
    match a with
    | ⟨0, _⟩ => rfl)
  rw [val_main_v26_apply, val_main_v23_apply, val_main_v20_apply, val_main_v22_apply, val_main_v21_apply, eb,
    val_main_v25_apply, val_main_v24_apply, ec, v14_at]
  simp only [Ideal.mulf_def, Ideal.addf_def]
  unfold Cert.Spec.filt Cert.Spec.hid
  refine congrArg (fun s => (s + x7 (ix1 f)) * Cert.Spec.cut (x2 (ix1 e))) (Finset.sum_congr rfl fun k _ => ?_)
  have el : lidx_main_v20 (ix2 e f) k = ix2 e k := funext fun a => Fin.ext (by
    match a with
    | ⟨0, _⟩ => rfl
    | ⟨1, _⟩ => rfl)
  have er : ridx_main_v20 (ix2 e f) k = ix2 k f := funext fun a => Fin.ext (by
    match a with
    | ⟨0, _⟩ => rfl
    | ⟨1, _⟩ => rfl)
  rw [el, er, v19_at, v18_at]

/-- The tail at node n, feature f, of the reference's own aggregated features. -/
theorem tail_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S1600000x64, .f32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal))
    (x12 : (⟨S128, .f32⟩ : BufTy).Contents (Elt Ideal)) (n : Fin 100000) (f : Fin 128) :
    val_main_v56 (F := Ideal) x0 x1 x2 x3 x4 x5 x6 x7 x8 x9 x10 x11 x12 (ix2 n f)
      = Cert.Spec.tail (val_main_v47 (F := Ideal) x0 x1 x2 x3 x4 x5 x6 x7 x8) x9 x10 x11 x12 n f := by
  have eb : idx_main_v54 (idx_main_v55 (ix2 n f)) = ix1 f := funext fun a => Fin.ext (by
    match a with
    | ⟨0, _⟩ => rfl)
  rw [val_main_v56_apply, val_main_v53_apply, val_main_v55_apply, val_main_v54_apply, eb, Ideal.addf_def]
  unfold Cert.Spec.tail
  refine congrArg (· + x12 (ix1 f)) (Finset.sum_congr rfl fun k _ => ?_)
  have el : lidx_main_v53 (ix2 n f) k = ix2 n k := funext fun a => Fin.ext (by
    match a with
    | ⟨0, _⟩ => rfl
    | ⟨1, _⟩ => rfl)
  have er : ridx_main_v53 (ix2 n f) k = ix2 k f := funext fun a => Fin.ext (by
    match a with
    | ⟨0, _⟩ => rfl
    | ⟨1, _⟩ => rfl)
  rw [el, er, v52_at, v51_at]

end Cert.ReferenceIdeal.Stages

end
-- ==== Proof.Bridge.lean ====
/- The kernel program's result is the reference's, array by array.

   The second launch leaves x·lin1_w and the first launch, on the real edges' rows, the edge filter — the reference's
   own two stages (both sides read entry by entry as the same sums). With every source index a node, the filled
   gather's in-bounds mask is all ones, so the gather with its fill is the plain gather; the scatter-mean that follows
   is then the reference's, operation for operation. The tail launch applies the block's tail to that array, which is
   what the reference's last stages do to theirs. -/
import proofs.«400786_j50714973831856_1_alg».proof.Proof.KValue
import proofs.«400786_j50714973831856_1_alg».proof.Proof.Region0
import proofs.«400786_j50714973831856_1_alg».proof.Proof.Region1
import proofs.«400786_j50714973831856_1_alg».proof.Proof.Region2
import proofs.«400786_j50714973831856_1_alg».proof.Proof.RefStages
import proofs.«400786_j50714973831856_1_alg».proof.Proof.Take
import Idealize.ShloMosaic.Lib.KernelVsHost
import Idealize.ShloMosaic.Lib.Pipeline.Value
import Idealize.ShloMosaic.Lib.ValueIdx

set_option maxRecDepth 16384

noncomputable section

namespace Cert.Bridge

open Cert.KernelIdeal Cert.KernelIdeal.Gen Cert.KernelIdeal.KValue Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The argument arrays as launched, by their literal types -/

abbrev A0 : FVec Ideal S100000x128 .f32 := m ((c : Thread nD τ).loc main_arg0)
abbrev A1 : IVec S2x1600000 32 := m ((c : Thread nD τ).loc main_arg1)
abbrev A2 : FVec Ideal S1600000 .f32 := m ((c : Thread nD τ).loc main_arg2)
abbrev A3 : FVec Ideal S1600000x64 .f32 := m ((c : Thread nD τ).loc main_arg3)
abbrev A4 : FVec Ideal S64x128 .f32 := m ((c : Thread nD τ).loc main_arg4)
abbrev A5 : FVec Ideal S128 .f32 := m ((c : Thread nD τ).loc main_arg5)
abbrev A6 : FVec Ideal S128x128 .f32 := m ((c : Thread nD τ).loc main_arg6)
abbrev A7 : FVec Ideal S128 .f32 := m ((c : Thread nD τ).loc main_arg7)
abbrev A8 : FVec Ideal S128x128 .f32 := m ((c : Thread nD τ).loc main_arg8)
abbrev A9 : FVec Ideal S128x128 .f32 := m ((c : Thread nD τ).loc main_arg9)
abbrev A10 : FVec Ideal S128 .f32 := m ((c : Thread nD τ).loc main_arg10)
abbrev A11 : FVec Ideal S128x128 .f32 := m ((c : Thread nD τ).loc main_arg11)
abbrev A12 : FVec Ideal S128 .f32 := m ((c : Thread nD τ).loc main_arg12)

/-! ## What each launch finds of the arguments -/

theorem entry0_arg4 : V4 m ρ c main_arg4 = A4 m c := main_arg4_at_entry0 m ρ c
theorem entry0_arg5 : V4 m ρ c main_arg5 = A5 m c := main_arg5_at_entry0 m ρ c
theorem entry0_arg6 : V4 m ρ c main_arg6 = A6 m c := main_arg6_at_entry0 m ρ c
theorem entry0_arg7 : V4 m ρ c main_arg7 = A7 m c := main_arg7_at_entry0 m ρ c
theorem entry0_attr : V4 m ρ c main_v0 = padAttr (A3 m c) := attr_at_entry0 m ρ c
theorem entry0_dist : V4 m ρ c main_v1 = padDist (A2 m c) := dist_at_entry0 m ρ c

theorem entry1_arg0 : V6 m ρ c main_arg0 = A0 m c :=
  (main_arg0_through_stretch0 m ρ c).trans ((main_arg0_through_launch0 m ρ c).trans (main_arg0_at_entry0 m ρ c))
theorem entry1_arg8 : V6 m ρ c main_arg8 = A8 m c :=
  (main_arg8_through_stretch0 m ρ c).trans ((main_arg8_through_launch0 m ρ c).trans (main_arg8_at_entry0 m ρ c))

/-- The edge index array after the second launch is the one launched. -/
theorem exit1_arg1 : W7 m ρ c (Proc.devRef .tc main_arg1) = A1 m c :=
  (arg1_through_launch1 m ρ c).trans ((main_arg1_through_stretch0 m ρ c).trans ((main_arg1_through_launch0 m ρ c).trans (main_arg1_at_entry0 m ρ c)))

/-- The tail launch reads each weight and bias through an input window it never writes back, so what it finds there is
    what the program ends with, the array as launched. -/
theorem entry2_arg9 : V10 m ρ c main_arg9 = A9 m c :=
  ((W11_arr m ρ c 1).trans (((dat2 (V10 m ρ) c).arrAt_in 1 rfl _).trans (A_eq2 (V10 m ρ) c 1))).symm.trans (W11_main_arg9 m ρ c)
theorem entry2_arg10 : V10 m ρ c main_arg10 = A10 m c :=
  ((W11_arr m ρ c 2).trans (((dat2 (V10 m ρ) c).arrAt_in 2 rfl _).trans (A_eq2 (V10 m ρ) c 2))).symm.trans (W11_main_arg10 m ρ c)
theorem entry2_arg11 : V10 m ρ c main_arg11 = A11 m c :=
  ((W11_arr m ρ c 3).trans (((dat2 (V10 m ρ) c).arrAt_in 3 rfl _).trans (A_eq2 (V10 m ρ) c 3))).symm.trans (W11_main_arg11 m ρ c)
theorem entry2_arg12 : V10 m ρ c main_arg12 = A12 m c :=
  ((W11_arr m ρ c 4).trans (((dat2 (V10 m ρ) c).arrAt_in 4 rfl _).trans (A_eq2 (V10 m ρ) c 4))).symm.trans (W11_main_arg12 m ρ c)

/-! ## The padded arrays on the real edges -/

/-- The padded distances at a real edge are the distances. -/
theorem padDist_at (a2 : FVec Ideal S1600000 .f32) (e : Fin 1600000) (he : e.val < 1605632) :
    padDist a2 (ix1 (⟨e.val, he⟩ : Fin 1605632)) = a2 (ix1 e) := by
  unfold padDist
  exact pad_apply_of_inside ![0] ![5632] ![0] a2 _ pads_S1600000_S1605632_056320 h_S_ (ix1 (⟨e.val, he⟩ : Fin 1605632)) (ix1 e)
    (fun a => match a with | ⟨0, _⟩ => by show e.val = 0 + e.val * (0 + 1); omega)

/-- The padded attributes on a real edge's row are the attributes. -/
theorem padAttr_at (a3 : FVec Ideal S1600000x64 .f32) (e : Fin 1600000) (he : e.val < 1605632) (l : Fin 64) :
    padAttr a3 (ix2 (⟨e.val, he⟩ : Fin 1605632) l) = a3 (ix2 e l) := by
  unfold padAttr
  exact pad_apply_of_inside ![0, 0] ![5632, 0] ![0, 0] a3 _ pads_S1600000x64_S1605632x64_056320_000 h_S_ (ix2 (⟨e.val, he⟩ : Fin 1605632) l) (ix2 e l)
    (fun a => match a with
      | ⟨0, _⟩ => by show e.val = 0 + e.val * (0 + 1); omega
      | ⟨1, _⟩ => by show l.val = 0 + l.val * (0 + 1); omega)

/-! ## The first two launches' arrays are the reference's stages -/

/-- The second launch leaves the reference's x·lin1_w. -/
theorem xf_eq : (dat1 (F := Ideal) (V6 m ρ) c).arrAt 2 cfg1.N
    = Cert.ReferenceIdeal.Read.val_main_v27 (F := Ideal) (A0 m c) (A8 m c) := by
  refine funext fun (i : S100000x128.Idx) => ?_
  obtain ⟨n, f, rfl⟩ : ∃ (n : Fin 100000) (f : Fin 128), i = ix2 n f := ⟨i 0, i 1, eq_ix2 i⟩
  rw [Region1.value, Cert.ReferenceIdeal.Stages.lin1_eq, entry1_arg0, entry1_arg8]

/-- The first launch's rows of the real edges, widened, are the reference's edge filter: the kernel's filter of the
    padded arrays reads, at a real edge, that edge's own distance and attribute row. -/
theorem filt_eq : realRows (F := Ideal) ((dat0 (F := Ideal) (V4 m ρ) c).arrAt 6 cfg0.N)
    = Cert.ReferenceIdeal.Read.val_main_v26 (F := Ideal) (A2 m c) (A3 m c) (A4 m c) (A5 m c) (A6 m c) (A7 m c) := by
  refine funext fun (i : S1600000x128.Idx) => ?_
  obtain ⟨e, f, rfl⟩ : ∃ (e : Fin 1600000) (f : Fin 128), i = ix2 e f := ⟨i 0, i 1, eq_ix2 i⟩
  have he : e.val < 1605632 := by have := e.isLt; omega
  unfold realRows
  rw [extf_apply]
  refine (extractStridedSlice_apply ![0, 0] _ slices_S1605632x128_S1600000x128_0_0 (ix2 e f) (ix2 (⟨e.val, he⟩ : Fin 1605632) f)
    (fun a => match a with
      | ⟨0, _⟩ => by show e.val = 0 + e.val; omega
      | ⟨1, _⟩ => by show f.val = 0 + f.val; omega)).trans ?_
  rw [Region0.value, Cert.ReferenceIdeal.Stages.filt_eq, entry0_dist, entry0_attr, entry0_arg4, entry0_arg5, entry0_arg6, entry0_arg7]
  exact Region0.filt_of_row (padDist (A2 m c)) (A2 m c) (padAttr (A3 m c)) (A3 m c) (A4 m c) (A5 m c) (A6 m c) (A7 m c)
    ⟨e.val, he⟩ e f (padDist_at (A2 m c) e he) (fun l => padAttr_at (A3 m c) e he l)

/-! ## With every source index a node, the filled gather is the gather -/

theorem take_inRange (xf : FVec Ideal S100000x128 .f32) (s : IVec S1600000 32) (h : Take.InRange s) :
    takeRows xf s = Host.gather gather_S100000x128_S1600000x1_S1600000x128_1_0_n_n_0_1_1128 xf (col (wrap s)) := by
  have hw : wrap s = s := Take.wrap_id s h
  have hm : inBounds (wrap s) = fun _ => 1#1 := by rw [hw]; exact Take.mask_ones s h
  unfold takeRows
  rw [hm]
  exact Take.select_ones _ _

/-! ## The aggregated features the tail launch finds are the reference's -/

set_option maxHeartbeats 2000000 in
theorem entry2_agg (h : Take.InRange (srcRow (A1 m c))) :
    V10 m ρ c main_v23 = Cert.ReferenceIdeal.Read.val_main_v47 (F := Ideal) (A0 m c) (A1 m c) (A2 m c) (A3 m c) (A4 m c) (A5 m c) (A6 m c) (A7 m c) (A8 m c) := by
  show W10 m ρ c (Proc.devRef .tc main_v23) = _
  rw [agg_of_stretch3, take_of_stretch2, v4_through_stretch2, v9_through_stretch2, src_of_stretch1, dst_of_stretch1,
    v5_through_stretch1, v4_through_stretch1, xf_at_exit1, v4_through_launch1, filt_of_stretch0, filt_at_exit0, exit1_arg1]
  rw [take_inRange _ _ h, xf_eq, filt_eq]
  unfold aggregate col wrap srcRow dstRow
  unfold Cert.ReferenceIdeal.Read.val_main_v47 Cert.ReferenceIdeal.Read.val_main_v38 Cert.ReferenceIdeal.Read.val_main_v46 Cert.ReferenceIdeal.Read.val_main_v45 Cert.ReferenceIdeal.Read.val_main_v44 Cert.ReferenceIdeal.Read.val_main_v42 Cert.ReferenceIdeal.Read.val_main_v43 Cert.ReferenceIdeal.Read.val_main_cst_7 Cert.ReferenceIdeal.Read.val_main_v41 Cert.ReferenceIdeal.Read.val_main_v40 Cert.ReferenceIdeal.Read.val_main_cst_6 Cert.ReferenceIdeal.Read.val_main_v39 Cert.ReferenceIdeal.Read.val_main_cst_5 Cert.ReferenceIdeal.Read.val_main_v37 Cert.ReferenceIdeal.Read.val_main_v36 Cert.ReferenceIdeal.Read.val_main_cst_4 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_c_3 Cert.ReferenceIdeal.Read.val_main_v29 Cert.ReferenceIdeal.Read.val_main_v28 Cert.ReferenceIdeal.Read.val_main_c Cert.ReferenceIdeal.Read.val_main_v3 Cert.ReferenceIdeal.Read.val_main_v2 Cert.ReferenceIdeal.Read.val_main_v1 Cert.ReferenceIdeal.Read.val_main_v0
  rfl

/-! ## The result -/

/-- The kernel program's result buffer ends at the reference's result term of the same argument arrays. -/
theorem result_eq (h : Take.InRange (srcRow (A1 m c))) :
    W11 m ρ c (Proc.devRef .tc main_v24)
      = Cert.ReferenceIdeal.Read.val_main_v56 (F := Ideal) (A0 m c) (A1 m c) (A2 m c) (A3 m c) (A4 m c) (A5 m c) (A6 m c) (A7 m c) (A8 m c) (A9 m c) (A10 m c) (A11 m c) (A12 m c) := by
  refine funext fun (i : S100000x128.Idx) => ?_
  obtain ⟨n, f, rfl⟩ : ∃ (n : Fin 100000) (f : Fin 128), i = ix2 n f := ⟨i 0, i 1, eq_ix2 i⟩
  rw [show W11 m ρ c (Proc.devRef .tc main_v24) = (dat2 (F := Ideal) (V10 m ρ) c).arrAt 5 cfg2.N from W11_arr m ρ c 5]
  rw [Region2.value, Cert.ReferenceIdeal.Stages.tail_eq, entry2_agg m ρ c h, entry2_arg9, entry2_arg10, entry2_arg11, entry2_arg12]

end Cert.Bridge

end
-- ==== Proof.PreRange.lean ====
/- What the precondition says of the source indices: every entry of row 0 of the edge index array, read signed,
   is a node, 0 ≤ s < 100000. (The precondition is a conjunction of reductions to one bit; its last two conjuncts
   are "all of row 0 ≥ 0" and "all of row 0 < 100000".) -/
import proofs.«400786_j50714973831856_1_alg».proof.Pre_finite_inputs
import proofs.«400786_j50714973831856_1_alg».proof.Proof.Gen.Pre_finite_inputs
import Idealize.ShloMosaic.Lib.ValueIdx
import Idealize.ShloMosaic.Lib.ReduceAll
import Idealize.ShloMosaic.Lib.StableHlo.Predicate

set_option maxRecDepth 16384

noncomputable section

namespace Cert.Pre_finite_inputs.Range

open Cert.Pre_finite_inputs Cert.Pre_finite_inputs.Gen Idealize.ShloMosaic Idealize.ShloMosaic.ValueIdx

/-- The rank-zero shape has one index. -/
instance : Subsingleton S_.Idx := ⟨fun a b => funext fun d => d.elim0⟩

/-- The words 0 and 100000 read signed are those numbers. -/
theorem toInt_zero : (0#32 : BitVec 32).toInt = 0 := by decide
theorem toInt_bound : (100000#32 : BitVec 32).toInt = 100000 := by decide

/-- Row 0 of the edge index array as the precondition spells it: a slice, then a reshape to rank one. -/
def src (a1 : IVec S2x1600000 32) : IVec S1600000 32 :=
  shapeCast S1600000 (extractStridedSlice S1x1600000 ![0, 0] a1 Facts.slices_S2x1600000_S1x1600000_0_0) Facts.shapeCasts_S1x1600000_S1600000

/-- Under the precondition every source index is a node. -/
theorem src_inRange (a0 : FVec Ideal S100000x128 .f32) (a1 : IVec S2x1600000 32) (a2 : FVec Ideal S1600000 .f32)
    (a3 : FVec Ideal S1600000x64 .f32) (a4 : FVec Ideal S64x128 .f32) (a5 : FVec Ideal S128 .f32) (a6 : FVec Ideal S128x128 .f32)
    (a7 : FVec Ideal S128 .f32) (a8 : FVec Ideal S128x128 .f32) (a9 : FVec Ideal S128x128 .f32) (a10 : FVec Ideal S128 .f32)
    (a11 : FVec Ideal S128x128 .f32) (a12 : FVec Ideal S128 .f32)
    (h : fn (F := Ideal) a0 a1 a2 a3 a4 a5 a6 a7 a8 a9 a10 a11 a12 = fun _ => 1#1) :
    ∀ e : S1600000.Idx, 0 ≤ (src a1 e).toInt ∧ (src a1 e).toInt < 100000 := by
  intro e
  -- the precondition's one bit, as the conjunction it is
  have h0 : fn (F := Ideal) a0 a1 a2 a3 a4 a5 a6 a7 a8 a9 a10 a11 a12 ix0 = 1#1 := congrFun h ix0
  unfold fn fn_part1 fn_part2 fn_part3 fn_part4 at h0
  dsimp only at h0
  -- its last conjunct is "all of row 0 < 100000", the one before it "all of row 0 ≥ 0"
  obtain ⟨h64, h69⟩ := IntOp.andi_eq_one.1 h0
  obtain ⟨-, h63⟩ := IntOp.andi_eq_one.1 h64
  -- a reduction by "and" to one bit that is 1 had a 1 at every entry: at e
  have hge := Host.reduce_andi_all _ _ _ _ _ h63 e
  have hlt := Host.reduce_andi_all _ _ _ _ _ h69 e
  -- the two word comparisons at e, read signed
  have hge' : (0#32 : BitVec 32).toInt ≤ (src a1 e).toInt := IntOp.cmpi_sge.1 hge
  have hlt' : (src a1 e).toInt < (100000#32 : BitVec 32).toInt := IntOp.cmpi_slt.1 hlt
  rw [toInt_zero] at hge'
  rw [toInt_bound] at hlt'
  exact ⟨hge', hlt'⟩

end Cert.Pre_finite_inputs.Range

end
-- ==== Proof.lean ====
/- The message-passing interaction block, as three launches with host gather and scatter between them, against the
   plain reference: both programs terminate, fault nowhere and leave their arguments alone, and over the extended reals,
   from memories that agree on the arguments, they end with the same [100000, 128] result.

   The statement's precondition asks, beside finite float inputs, that every source index (row 0 of the edge index
   array) be a node, 0 ≤ s < 100000. That is where the two programs could part: the kernel program gathers the
   source rows with a fill for out-of-range indices and the reference gathers with its indices clamped. On node
   indices both read the same row.

   The value argument, in the order of the dataflow. The first launch computes, on the edge axis padded to a whole
   number of blocks, the edge filter (Σ_k silu(Σ_l attr[e,l]·w1[l,k] + b1[k])·w2[k,f] + b2[f])·cut(ew[e]); on the rows of
   the real edges this is the reference's filter, the padding never being read there. The second launch computes
   x·lin1_w. The host operations between the launches — the rows of the edge index array, the gather, the product
   with the filter, the two scatter-sums and the division by the clamped count — are the reference's own, operation
   for operation, once the filled gather is the plain gather. The third launch applies
   Σ_k silu(Σ_l agg[n,l]·w2[l,k] + b2[k])·w[k,f] + b[f] to the aggregated features, which is what the reference's
   last stages apply to theirs. A change of float format is the identity over the extended reals, a product into a
   zero accumulator is the plain sum over the contracted axis, and the logistic function is one function whether it is
   one operation or spelt 1/(1+e^{-z}); no step moves a factor across a sum, so finiteness of the floats is not used. -/
import proofs.«400786_j50714973831856_1_alg».proof.Defs
import proofs.«400786_j50714973831856_1_alg».proof.Proof.Gen.Kernel
import proofs.«400786_j50714973831856_1_alg».proof.Proof.Gen.Kernel.Skeleton
import proofs.«400786_j50714973831856_1_alg».proof.Proof.Gen.Kernel.Launch
import proofs.«400786_j50714973831856_1_alg».proof.Proof.Gen.Kernel.Points
import proofs.«400786_j50714973831856_1_alg».proof.Proof.Gen.Kernel.Frame
import proofs.«400786_j50714973831856_1_alg».proof.Proof.Gen.KernelIdeal
import proofs.«400786_j50714973831856_1_alg».proof.Proof.Gen.KernelIdeal.Skeleton
import proofs.«400786_j50714973831856_1_alg».proof.Proof.Gen.KernelIdeal.Launch
import proofs.«400786_j50714973831856_1_alg».proof.Proof.Gen.KernelIdeal.Points
import proofs.«400786_j50714973831856_1_alg».proof.Proof.Gen.KernelIdeal.Frame
import proofs.«400786_j50714973831856_1_alg».proof.Proof.Gen.ReferenceIdeal
import proofs.«400786_j50714973831856_1_alg».proof.Proof.Gen.Pre_finite_inputs
import proofs.«400786_j50714973831856_1_alg».proof.Proof.Gen.ReferenceIdeal.Run
import proofs.«400786_j50714973831856_1_alg».proof.Proof.Gen.ReferenceIdeal.Read
import proofs.«400786_j50714973831856_1_alg».proof.Proof.KRun
import proofs.«400786_j50714973831856_1_alg».proof.Proof.Bridge
import proofs.«400786_j50714973831856_1_alg».proof.Proof.PreRange
import Idealize.ShloMosaic.Adequacy
import Idealize.ShloMosaic.Init

noncomputable section

namespace Cert.Proof

open Idealize.ShloMosaic Idealize.ShloMosaic.TcCoe Idealize.SL.Sem

/-! ## The three programs run and leave their arguments alone -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-! ## The two idealized programs end with the same result -/

/-- Under the precondition every source index of the kernel program's memory is a node. -/
theorem sources_are_nodes (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Take.InRange (Cert.KernelIdeal.KValue.srcRow (Cert.Bridge.A1 m c)) :=
  fun e => Cert.Pre_finite_inputs.Range.src_inRange _ _ _ _ _ _ _ _ _ _ _ _ _ (hpre c) e

theorem algebraic : Cert.algebraic_KernelIdeal_ReferenceIdeal := by
  intro m ρ m' ρ' hpre hagree
  refine ⟨fun c => Cert.KernelIdeal.Gen.W11 m ρ c (Proc.devRef .tc Cert.KernelIdeal.main_v24), Cert.KernelIdeal.KRun.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v56_eq, h0, h1, h2, h3, h4, h5, h6, h7, h8, h9, h10, h11, h12]
  exact (Cert.Bridge.result_eq m ρ c (sources_are_nodes m hpre c)).symm

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
